-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) (main_arg2 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  main_v13
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S4x1x128 : Shape := ⟨3, ![4, 1, 128]⟩
abbrev S1024x256 : Shape := ⟨2, ![1024, 256]⟩
abbrev S1x1x128 : Shape := ⟨3, ![1, 1, 128]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S1x1 : Shape := ⟨2, ![1, 1]⟩
abbrev S4x1x1 : Shape := ⟨3, ![4, 1, 1]⟩
abbrev S4 : Shape := ⟨1, ![4]⟩

abbrev nBuf : Space → Nat
  | .hbm => 41
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .bf16⟩
  | .hbm, ⟨14, _⟩ => ⟨S4096x256, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x256, .f32⟩
  | .hbm, ⟨23, _⟩ => ⟨S4096x256, .f32⟩
  | .hbm, ⟨24, _⟩ => ⟨S4096x256, .bf16⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x256, .f32⟩
  | .hbm, ⟨34, _⟩ => ⟨S4096x256, .f32⟩
  | .hbm, ⟨35, _⟩ => ⟨S4096x256, .bf16⟩
  | .hbm, ⟨36, _⟩ => ⟨S4x1x128, .f32⟩
  | .hbm, ⟨37, _⟩ => ⟨S4x1x1, .f32⟩
  | .hbm, ⟨38, _⟩ => ⟨S4, .f32⟩
  | .hbm, ⟨39, _⟩ => ⟨S_, .f32⟩
  | .hbm, ⟨40, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1x1x128, .f32⟩
  | .local _ .vmem, ⟨13, _⟩ => ⟨S1x1x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call2_v0 : Ref sig .tc := ⟨.hbm, 25, rfl⟩
abbrev main_call2_cst : Ref sig .tc := ⟨.hbm, 26, rfl⟩
abbrev main_call2_v1 : Ref sig .tc := ⟨.hbm, 27, rfl⟩
abbrev main_call2_v2 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  bitsLt_bf16_f32 : FTy.bits .bf16 < FTy.bits .f32
  inb_S1x1x128_S1x1x128_0_0_0 : ∀ a, (![0, 0, 0] : Fin 3 → Nat) a + S1x1x128.size a ≤ S1x1x128.size a
  h_S1x1x128 : 0 < S1x1x128.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1x128_S1x1x128 : S1x1x128.ShapeCasts S1x1x128
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  slices_S4x1x128_S4x1x1_0_0_0 : S4x1x128.Slices ![0, 0, 0] S4x1x1
  shapeCasts_S4x1x1_S4 : S4x1x1.ShapeCasts S4
  reducesTo_S4_S_d0 : S4.ReducesTo [0] S_
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .bf16 = 32 ∨ (Rect.block (s := S4096x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x256.size a
  hwx0_1 : ∀ i : grid0.Coords, EltTy.bits .bf16 = 32 ∨ (Rect.block (s := S4096x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S4096x256.size a
  hwx0_2 : ∀ i : grid0.Coords, EltTy.bits .bf16 = 32 ∨ (Rect.block (s := S4096x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x256.size a
  hwx0_3 : ∀ i : grid0.Coords, EltTy.bits .bf16 = 32 ∨ (Rect.block (s := S4096x256) S1024x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S4096x256.size a
  hwx0_4 : ∀ i : grid0.Coords, EltTy.bits .bf16 = 32 ∨ (Rect.block (s := S4096x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x256.size a
  hwx0_5 : ∀ i : grid0.Coords, EltTy.bits .bf16 = 32 ∨ (Rect.block (s := S4096x256) S1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S4x1x128.size a
  hwx0_6 : ∀ i : grid0.Coords, EltTy.bits .f32 = 32 ∨ (Rect.block (s := S4x1x128) S1x1x128.size (cc0_transform_6 i) (hinb0_6 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S4096x4096 : Shape := ⟨2, ![4096, 4096]⟩

abbrev nBuf : Space → Nat
  | .hbm => 95
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x256, .f32⟩
  | .hbm, ⟨12, _⟩ => ⟨S4096x256, .f32⟩
  | .hbm, ⟨13, _⟩ => ⟨S4096x256, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x256, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x256, .f32⟩
  | .hbm, ⟨32, _⟩ => ⟨S4096x256, .f32⟩
  | .hbm, ⟨33, _⟩ => ⟨S256x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S256x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S256x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S256x4096, .f32⟩
  | .hbm, ⟨49, _⟩ => ⟨S4096x4096, .f32⟩
  | .hbm, ⟨50, _⟩ => ⟨S_, .f32⟩
  | .hbm, ⟨51, _⟩ => ⟨S4096x4096, .f32⟩
  | .hbm, ⟨52, _⟩ => ⟨S4096x4096, .f32⟩
  | .hbm, ⟨53, _⟩ => ⟨S256x4096, .f32⟩
  | .hbm, ⟨54, _⟩ => ⟨S4096x4096, .f32⟩
  | .hbm, ⟨55, _⟩ => ⟨S_, .f32⟩
  | .hbm, ⟨56, _⟩ => ⟨S4096x4096, .f32⟩
  | .hbm, ⟨57, _⟩ => ⟨S4096x4096, .f32⟩
  | .hbm, ⟨58, _⟩ => ⟨S256x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4096x4096, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S4096x4096, .f32⟩
  | .hbm, ⟨84, _⟩ => ⟨S_, .f32⟩
  | .hbm, ⟨85, _⟩ => ⟨S_, .f32⟩
  | .hbm, ⟨86, _⟩ => ⟨S4096x4096, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S4096x4096, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_call2_v2 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_14 : Ref sig .tc := ⟨.hbm, 84, rfl⟩
abbrev main_v54 : Ref sig .tc := ⟨.hbm, 85, rfl⟩
abbrev main_v55 : Ref sig .tc := ⟨.hbm, 86, rfl⟩
abbrev main_cst_15 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  transposes_S4096x256_S256x4096_1_0 : S4096x256.Transposes [1, 0] S256x4096
  bcast_S_S4096x4096 : S_.BroadcastsInDim S4096x4096 (![] : Fin 0 → Fin S4096x4096.rank)
  reducesTo_S4096x4096_S_d0_1 : S4096x4096.ReducesTo [0, 1] S_
  dot_S4096x256_S256x4096_S4096x4096_1_0_0_1_n_n_wf : DotDims.WF S4096x256 S256x4096 S4096x4096 [1] [0] [0] [1] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf

class Facts : Prop extends Facts₀ where

variable [Facts]
-- ==== Proof.K.Runs.lean ====
/-
  The pipeline of the one pallas_call, seen from its body: the contents of the TensorCore's buffers when the
  region is entered (the host lines before it folded over the launch memory), each window's block at a grid
  point read off its array, the body's one branch condition (the second grid coordinate is zero: the first
  column tile of a row of tiles) decided over the 4 x 4 grid, and that an input window's staging buffer holds
  its block at every point, refetched there or not.
-/
import proofs.«173711_j88081189306970_1_alg».proof.Proof.Gen.Kernel.Launch
import proofs.«173711_j88081189306970_1_alg».proof.Proof.Gen.Kernel.Skeleton
import proofs.«173711_j88081189306970_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the region, stretch by stretch. -/
abbrev preOps : List (List (HloOp τ sig (Elt F))) := [hostOps0, hostOps0_1, hostOps0_2, hostOps0_3, hostOps0_4, hostOps0_5]

/-- Core `c`'s buffers when the region is entered: the launch memory after the host lines before it. -/
abbrev V0 (c : Dev nD) : Valuation τ sig (Elt F) := StableHlo.after (List.flatten (preOps (F := F))) (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, refetched there or not, for any
    proof data whose array is the entry contents and whose body leaves the block in place: where the block is
    not refetched its index has not moved. One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The body's branch: the second grid coordinate is zero. -/
abbrev cond0_0 (i : grid0.Coords) : Prop := (Scalar.cmpi .ne (Scalar.extui (Scalar.cmpi .eq (BitVec.ofNat 32 (i 1).val) 0#32)) 0#32) = 1#1
/-- It holds at the points 0, 4, 8, 12. -/
theorem hcond0_0 : ∀ t : Fin cfg0.N, cond0_0 (grid0.coords t) ↔ t.val % 4 = 0 :=
  (by decide +kernel : ∀ t : Fin grid0.N, cond0_0 (grid0.coords t) ↔ t.val % 4 = 0)

/-- One staging buffer of the output window, through which its contents are stated. -/
abbrev VO : View sig .tc .vmem S1x1x128 .f32 := (Memref.whole cc0_stg6_0 : Memref sig .tc .vmem S1x1x128 .f32).view

/-- Each window's current staging memref at point `t`, as the pipeline passes it, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x128 .f32 := win0_6.stage (cfg0.slots t 6)
abbrev hs6 (t : Fin cfg0.N) : (ms6 t).IsWhole := hstage0_6 ((cfg0.slots t 6).cast nbuf0_6)

end Cert.Kernel.Hand

end
-- ==== Proof.K.RunA.lean ====
/-
  The kernel body at a point of the first column tile (the branch taken): the output block is zeroed, the six
  input blocks are loaded, and the tile's total is added to the zeroed block and stored. The run is the
  executor's; the pieces the output's staging buffer ends with are the witness it finds.
-/
import proofs.«173711_j88081189306970_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : cond0_0 i)
    (x0 x1 x2 x3 x4 x5 : Vec F S1024x256 .bf16) :
    { L : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__nt_xent_kernel i arg2 harg2 arg3 harg3 arg4 harg4 arg5 harg5 arg6 harg6 arg7 harg7 arg8 harg8) K } := by
  refine ⟨?_, fun E K => ?run⟩
  case run =>
    simp only [cc0__nt_xent_kernel_eq_skeleton]; unfold cc0__nt_xent_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Hand

end
-- ==== Proof.K.RunB.lean ====
/-
  The kernel body at a point of a later column tile (the branch not taken): the six input blocks are loaded, and
  the tile's total is added to what the output block held and stored back.
-/
import proofs.«173711_j88081189306970_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : ¬cond0_0 i)
    (x0 x1 x2 x3 x4 x5 : Vec F S1024x256 .bf16) (xo : Vec F S1x1x128 .f32) :
    { L : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__nt_xent_kernel i arg2 harg2 arg3 harg3 arg4 harg4 arg5 harg5 arg6 harg6 arg7 harg7 arg8 harg8) K } := by
  refine ⟨?_, fun E K => ?run⟩
  case run =>
    simp only [cc0__nt_xent_kernel_eq_skeleton]; unfold cc0__nt_xent_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.Kernel.Hand

end
-- ==== Proof.K.Frame.lean ====
/-
  The proof data of the pallas_call and its body obligation. After the body at a grid point each input window's
  staging buffer holds its block (the body only loads it); the output window's holds the running total of its row
  of tiles: at the first column tile the tile's total over a zeroed block, at a later one the tile's total added to
  what the point before left (the output block is not written back between the column tiles of one row).
  The three normalised arrays are each read through two windows, so each is held at two half shares.
-/
import proofs.«173711_j88081189306970_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the first-column-tile run leaves tile the output block. -/
theorem cover0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : cond0_0 i)
    (x0 x1 x2 x3 x4 x5 : Vec F S1024x256 .bf16) (y : S1x1x128.Idx) :
    ∃ pc ∈ (kernelRun0_A c i arg2 harg2 arg3 harg3 arg4 harg4 arg5 harg5 arg6 harg6 arg7 harg7 arg8 harg8 hc0 x0 x1 x2 x3 x4 x5).1, y ∈ pc.1.set :=
  View.cover_of_tiledL (kernelRun0_A c i arg2 harg2 arg3 harg3 arg4 harg4 arg5 harg5 arg6 harg6 arg7 harg7 arg8 harg8 hc0 x0 x1 x2 x3 x4 x5).1 S1x1x128.size (by sl_kernel_rfl) y

/-- What that run leaves in the output's staging buffer. -/
def out0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : cond0_0 i)
    (x0 x1 x2 x3 x4 x5 : Vec F S1024x256 .bf16) : Vec F S1x1x128 .f32 :=
  VO.read (Elt F) (VO.writes (Elt F) VO.junk (kernelRun0_A c i arg2 harg2 arg3 harg3 arg4 harg4 arg5 harg5 arg6 harg6 arg7 harg7 arg8 harg8 hc0 x0 x1 x2 x3 x4 x5).1)

/-- The pieces a later-column-tile run leaves tile the output block. -/
theorem cover0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : ¬cond0_0 i)
    (x0 x1 x2 x3 x4 x5 : Vec F S1024x256 .bf16) (xo : Vec F S1x1x128 .f32) (y : S1x1x128.Idx) :
    ∃ pc ∈ (kernelRun0_B c i arg2 harg2 arg3 harg3 arg4 harg4 arg5 harg5 arg6 harg6 arg7 harg7 arg8 harg8 hc0 x0 x1 x2 x3 x4 x5 xo).1, y ∈ pc.1.set :=
  View.cover_of_tiledL (kernelRun0_B c i arg2 harg2 arg3 harg3 arg4 harg4 arg5 harg5 arg6 harg6 arg7 harg7 arg8 harg8 hc0 x0 x1 x2 x3 x4 x5 xo).1 S1x1x128.size (by sl_kernel_rfl) y

/-- What that run leaves in the output's staging buffer, over what the buffer held. -/
def out0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : ¬cond0_0 i)
    (x0 x1 x2 x3 x4 x5 : Vec F S1024x256 .bf16) (xo : Vec F S1x1x128 .f32) : Vec F S1x1x128 .f32 :=
  VO.read (Elt F) (VO.writes (Elt F) VO.junk (kernelRun0_B c i arg2 harg2 arg3 harg3 arg4 harg4 arg5 harg5 arg6 harg6 arg7 harg7 arg8 harg8 hc0 x0 x1 x2 x3 x4 x5 xo).1)

/-- The accumulation: what the output's staging buffer holds after the body at position `n`. -/
def outsAt0 (c : Dev nD) : (n : ℕ) → n < cfg0.N → Vec F S1x1x128 .f32
  | 0, hn => out0_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 4 = 0 then
      out0_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      out0_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

theorem outsAt0_A (c : Dev nD) (t : Fin cfg0.N) (h0 : t.val % 4 = 0) :
    outsAt0 m c t.val t.isLt = out0_A c (grid0.coords t) (ms0 t) (hs0 t) (ms1 t) (hs1 t) (ms2 t) (hs2 t) (ms3 t) (hs3 t) (ms4 t) (hs4 t) (ms5 t) (hs5 t) (ms6 t) (hs6 t) ((hcond0_0 t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = out0_B c (grid0.coords t) (ms0 t) (hs0 t) (ms1 t) (hs1 t) (ms2 t) (hs2 t) (ms3 t) (hs3 t) (ms4 t) (hs4 t) (ms5 t) (hs5 t) (ms6 t) (hs6 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d
theorem before0_5 (c : Dev nD) (t : Fin cfg0.N) (d) : (dats m 0 c).before 5 t d = iblk m c 5 t :=
  before_in5_of m (dats m 0 c) (A_eq m c 5) (after0_5 m c) t d

/-- At a later column tile the output's staging buffer holds what the point before left: the block was not
    written back between. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 16 := lt_of_lt_of_eq t.isLt (show cfg0.N = 16 from N_0)
  by_cases h0 : t.val % 4 = 0
  · rw [outsAt0_A m c t h0]
    unfold out0_A
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_A c _ _ _ _ _ _ _ _ _ _ _ _ _ _ _ _ _ _ _ _ _ _)
  · rw [outsAt0_B m c t h0]
    simp only [before0_6_B m c t h0]
    unfold out0_B
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B c _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Tail.lean ====
/-
  The host lines after the region as one function of the region's result array: the first lane of each of the
  four row blocks, summed.
-/
import proofs.«173711_j88081189306970_1_alg».proof.Proof.Gen.Kernel.Launch

noncomputable section

namespace Cert.Kernel.Hand

open Cert.Kernel Cert.Kernel.Gen
open Idealize.ShloMosaic Idealize.ShloMosaic.TcCoe

variable {F : FTy → Type} [FloatOps F]

/-- Slice lane 0 of each row block, drop the unit axes, add the four entries to zero. -/
def tailFn (a : (⟨S4x1x128, .f32⟩ : BufTy).Contents (Elt F)) : (⟨S_, .f32⟩ : BufTy).Contents (Elt F) :=
  Host.reduceAdd (shapeCast S4 (extractStridedSlice S4x1x1 ![0, 0, 0] a slices_S4x1x128_S4x1x1_0_0_0) shapeCasts_S4x1x1_S4)
    (constant S_ .f32 0x00000000#32) reducesTo_S4_S_d0 h_S_

end Cert.Kernel.Hand

end
-- ==== Proof.K.Launch.lean ====
/-
  The launch: @main is host lines, the one kernel region, host lines. The three normalised arrays are each handed
  to the kernel through two windows; each is split into its two half shares at the region's entry. The run ends
  with the result scalar at the host tail's function of the region's output array and the arguments unchanged.
-/
import proofs.«173711_j88081189306970_1_alg».proof.Proof.K.Frame
import proofs.«173711_j88081189306970_1_alg».proof.Proof.K.Tail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem preOps_fresh : (preOps (F := F)).Forall fun ops => ops.Forall fun op => op.fresh = ∅ := by
  simp only [List.Forall]; repeat' constructor

/-- @main reduces to the region continued by the last host line, entered at the contents the earlier lines leave. -/
theorem hmain : Pipeline.HMainK (Ix := Unit) (Name := ℕ) (U := UR sig nD τ) (Lvl := ℕ) cfgs 0 defs₀ Variants.none m (main (F := F)) (V m)
      (fun _ => Pipeline.chain ([hostOps1].map StableHlo.seq)) :=
  Pipeline.hmain_around cfgs 0 defs₀ Variants.none m main preOps [hostOps1]
    (by simp only [List.Forall]; exact ⟨hostOps0_sub, hostOps0_1_sub, hostOps0_2_sub, hostOps0_3_sub, hostOps0_4_sub, hostOps0_5_sub⟩)
    preOps_fresh (fun c => (main_chain c).trans rfl)

/-- The buffers' contents when the region is left: the output array at what the write-backs made of it, every
    other buffer as the region found it. -/
def Wx (c : Dev nD) : Valuation τ sig (Elt F) := by
  classical
  exact Function.update (V0 m c) (Proc.devRef .tc main_v18) ((dats m 0 c).arrAt 6 cfg0.N)

/-- The contents after the last host line. -/
def Vx (c : Dev nD) (b : Ref sig .tc) : Buf (Elt F) ((c : Thread nD τ).loc b) :=
  StableHlo.after (List.flatten [hostOps1]) (Wx m c) (Proc.devRef .tc b)

/-- The array at the region's entry is the proof data's entry contents. -/
theorem arrAt0 {c : Dev nD} (dat : Dat τ (Elt F) Unit ℕ (UR sig nD τ) ℕ cfg0 c) (w : Fin cfg0.W) : dat.arrAt w 0 = dat.A w := rfl

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare.left := rfl
theorem share5 (c : Dev nD) : (dats m 0 c).share 5 = fullShare.right := rfl
theorem share6 (c : Dev nD) : (dats m 0 c).share 6 = fullShare := rfl

/-- Each normalised array, whole at the region's entry, is split into the two half shares its two windows hold;
    the output array goes to its one window whole. -/
theorem hsplit (c : Dev nD) : (Pipeline.arrBufs spec0 c (V m c) : sProp 𝕄) ⊢ (dats m 0 c).arrays ((dats m 0 c).arrAt · 0) := by
  classical
  unfold Pipeline.arrBufs Dat.arrays
  rw [bigSep_eq_bigSepL_of_eq [main_v5, main_v11, main_v17, main_v18] (by decide) (by decide), bigSep_W0]
  simp only [bigSepL_cons_cons, bigSepL_singleton, arrAt0, A_eq, share0, share1, share2, share3, share4, share5, share6]
  rw [View.set_whole, View.set_whole, View.set_whole, View.set_whole]
  refine (show iprop(((c.tc : Thread nD τ).loc main_v5 ↦{fullShare} V m c main_v5) ∗ ((c.tc : Thread nD τ).loc main_v11 ↦{fullShare} V m c main_v11)
      ∗ ((c.tc : Thread nD τ).loc main_v17 ↦{fullShare} V m c main_v17) ∗ ((c.tc : Thread nD τ).loc main_v18 ↦{fullShare} V m c main_v18)) ⊢ iprop(
      ((c.tc : Thread nD τ).loc main_v5 ↦{fullShare.left} V m c main_v5) ∗ ((c.tc : Thread nD τ).loc main_v5 ↦{fullShare.right} V m c main_v5)
      ∗ ((c.tc : Thread nD τ).loc main_v11 ↦{fullShare.left} V m c main_v11) ∗ ((c.tc : Thread nD τ).loc main_v11 ↦{fullShare.right} V m c main_v11)
      ∗ ((c.tc : Thread nD τ).loc main_v17 ↦{fullShare.left} V m c main_v17) ∗ ((c.tc : Thread nD τ).loc main_v17 ↦{fullShare.right} V m c main_v17)
      ∗ ((c.tc : Thread nD τ).loc main_v18 ↦{fullShare} V m c main_v18)) from ?_)
  iintro ⟨H5, H11, H17, H18⟩
  ihave H5 := (pointsTo_share (PosShare.mem_left_op_right fullShare)).1 $$ H5
  ihave H11 := (pointsTo_share (PosShare.mem_left_op_right fullShare)).1 $$ H11
  ihave H17 := (pointsTo_share (PosShare.mem_left_op_right fullShare)).1 $$ H17
  icases H5 with ⟨H5a, H5b⟩
  icases H11 with ⟨H11a, H11b⟩
  icases H17 with ⟨H17a, H17b⟩
  isplitl [H5a]; · iexact H5a
  isplitl [H5b]; · iexact H5b
  isplitl [H11a]; · iexact H11a
  isplitl [H11b]; · iexact H11b
  isplitl [H17a]; · iexact H17a
  isplitl [H17b]; · iexact H17b
  iexact H18

/-! ### The last host line -/

theorem Wx_out (c : Dev nD) : Wx m c (Proc.devRef .tc main_v18) = (dats m 0 c).arrAt 6 cfg0.N := by
  unfold Wx; exact Function.update_self _ _ _
theorem Wx_ne (c : Dev nD) (b : Ref sig .tc) (hb : b ≠ main_v18) : Wx m c (Proc.devRef .tc b) = V m c b := by
  unfold Wx; exact Function.update_of_ne (StableHlo.devRef_ne_of_ne hb) _ _

/-- The buffers the last host line runs within: the output array and every buffer that bypasses the region. -/
def tailS : Finset (DevRef τ sig) :=
  (insert main_v18 (Pipeline.restRefs sig spec0)).map ⟨Proc.devRef (sig := sig) .tc, Proc.devRef_injective _⟩

theorem v18_not_rest : main_v18 ∉ Pipeline.restRefs sig spec0 := fun h =>
  (Finset.mem_sdiff.mp h).2 (Finset.mem_image.mpr ⟨6, Finset.mem_univ _, rfl⟩)

theorem mem_tailS {b : Ref sig .tc} (h : b = main_v18 ∨ b ∈ Pipeline.restRefs sig spec0) : Proc.devRef .tc b ∈ tailS :=
  Finset.mem_map_of_mem _ (Finset.mem_insert.mpr h)

/-- Held at a valuation, they are the output array and the bypassing buffers at it. -/
theorem held_tailS (c : Dev nD) (W : Valuation τ sig (Elt F)) :
    (StableHlo.held (c.tc : Thread nD τ) tailS W : sProp 𝕄)
      = iprop((((c.tc : Thread nD τ).loc main_v18) ↦{fullShare} W (Proc.devRef .tc main_v18))
          ∗ Pipeline.unscopedRest spec0 c (fun b => W (Proc.devRef .tc b))) := by
  unfold StableHlo.held tailS Pipeline.unscopedRest
  rw [bigSep_map, bigSep_insert v18_not_rest]
  rfl

/-- The bypassing buffers are as the region found them when it is left. -/
theorem rest_Wx (c : Dev nD) :
    (Pipeline.unscopedRest spec0 c (fun b => Wx m c (Proc.devRef .tc b)) : sProp 𝕄) = Pipeline.unscopedRest spec0 c (V m c) := by
  unfold Pipeline.unscopedRest
  exact bigSep_congr fun b hb => by beta_reduce; rw [Wx_ne m c b fun e => v18_not_rest (e ▸ hb)]
theorem rest_Vx (c : Dev nD) :
    (Pipeline.unscopedRest spec0 c (fun b => StableHlo.after (List.flatten [hostOps1]) (Wx m c) (Proc.devRef .tc b)) : sProp 𝕄)
      = Pipeline.unscopedRest spec0 c (Vx m c) := rfl

theorem tail_sub' : (hostOps1 : List (HloOp τ sig (Elt F))).Forall fun op => op.bufs ⊆ tailS := by
  simp only [hostOps1, List.Forall]
  refine ⟨?_, ?_, ?_, ?_⟩
  · rw [StableHlo.unary_bufs]
    exact Finset.insert_subset_iff.mpr ⟨mem_tailS (.inl rfl),
      Finset.singleton_subset_iff.mpr (mem_tailS (.inr (Pipeline.mem_restRefs_of _ rfl (by decide))))⟩
  · rw [StableHlo.reshape_bufs]
    exact Finset.insert_subset_iff.mpr ⟨mem_tailS (.inr (Pipeline.mem_restRefs_of _ rfl (by decide))),
      Finset.singleton_subset_iff.mpr (mem_tailS (.inr (Pipeline.mem_restRefs_of _ rfl (by decide))))⟩
  · rw [StableHlo.nullary_bufs]
    exact Finset.singleton_subset_iff.mpr (mem_tailS (.inr (Pipeline.mem_restRefs_of _ rfl (by decide))))
  · rw [StableHlo.binary_bufs]
    exact Finset.insert_subset_iff.mpr ⟨mem_tailS (.inr (Pipeline.mem_restRefs_of _ rfl (by decide))),
      Finset.insert_subset_iff.mpr ⟨mem_tailS (.inr (Pipeline.mem_restRefs_of _ rfl (by decide))),
        Finset.singleton_subset_iff.mpr (mem_tailS (.inr (Pipeline.mem_restRefs_of _ rfl (by decide))))⟩⟩

theorem tail_sub : ∀ ops ∈ ([hostOps1] : List (List (HloOp τ sig (Elt F)))), ∀ op ∈ ops, op.bufs ⊆ tailS := by
  intro ops hops op hop
  rw [List.mem_singleton] at hops; subst hops
  exact (List.forall_iff_forall_mem.mp tail_sub') op hop

theorem tail_fresh : ∀ ops ∈ ([hostOps1] : List (List (HloOp τ sig (Elt F)))), ∀ op ∈ ops, op.fresh = ∅ := by
  intro ops hops op hop
  rw [List.mem_singleton] at hops; subst hops
  exact (List.forall_iff_forall_mem.mp (show (hostOps1 : List (HloOp τ sig (Elt F))).Forall fun op => op.fresh = ∅ from by
    simp only [hostOps1, List.Forall]; exact ⟨rfl, rfl, rfl, rfl⟩)) op hop

/-- The last host line does not write the output array. -/
theorem after_tail_v18 (W : Valuation τ sig (Elt F)) :
    StableHlo.after (List.flatten [hostOps1]) W (Proc.devRef .tc main_v18) = W (Proc.devRef .tc main_v18) := by
  simp only [List.flatten_cons, List.flatten_nil, List.append_nil, hostOps1]
  after_results

set_option backward.isDefEq.respectTransparency.types false in
/-- The last host line, run holding the output array and the bypassing buffers. -/
theorem tail_run (c : Dev nD) (Q' : PUnit → sProp 𝕄) :
    iprop((iprop((((c.tc : Thread nD τ).loc main_v18) ↦{fullShare} (dats m 0 c).arrAt 6 cfg0.N) ∗ Pipeline.unscopedRest spec0 c (Vx m c)) -∗ Q' ⟨⟩)
        ∗ boundary (c.tc : Thread nD τ) ∗ (((c.tc : Thread nD τ).loc main_v18) ↦{fullShare} (dats m 0 c).arrAt 6 cfg0.N) ∗ Pipeline.unscopedRest spec0 c (V m c))
      ⊢ wp frame (wpE (Pipeline.defs (fun q => Cfg.toPCfg (Val := Elt F) (cfgs q)) defs₀) (Variants.lift Variants.none) (c.tc : Thread nD τ) none) Set.univ
          (Pipeline.chain ([hostOps1].map StableHlo.seq)) Q' := by
  have hW : (StableHlo.held (c.tc : Thread nD τ) tailS (Wx m c) : sProp 𝕄)
      = iprop((((c.tc : Thread nD τ).loc main_v18) ↦{fullShare} (dats m 0 c).arrAt 6 cfg0.N) ∗ Pipeline.unscopedRest spec0 c (V m c)) := by
    rw [held_tailS, Wx_out, rest_Wx]
  have hW' : (StableHlo.held (c.tc : Thread nD τ) tailS (StableHlo.after (List.flatten [hostOps1]) (Wx m c)) : sProp 𝕄)
      = iprop((((c.tc : Thread nD τ).loc main_v18) ↦{fullShare} (dats m 0 c).arrAt 6 cfg0.N) ∗ Pipeline.unscopedRest spec0 c (Vx m c)) := by
    rw [held_tailS, after_tail_v18, Wx_out, rest_Vx]
  have h := Pipeline.wp_seqs_then (Ix := Unit) (Name := ℕ) (U := UR sig nD τ) (Lvl := ℕ) (fun q => Cfg.toPCfg (Val := Elt F) (cfgs q)) defs₀ Variants.none c tailS []
    (K := Q') [hostOps1] tail_sub tail_fresh (Wx m c)
  rw [List.append_nil, Pipeline.chain_nil, hW, hW'] at h
  iintro ⟨Hk, Hb, H6, HZ⟩
  iapply h $$ [Hb H6 HZ]
  · isplitl [Hb]; · iexact Hb
    isplitl [H6]; · iexact H6
    iexact HZ
  iintro ⟨-, H⟩
  rw [wp_pure]; imodintro
  iapply Hk; iexact H

/-- The pipeline's arrays are the output array, whole, and the six input windows' shares. -/
theorem arrays_out (c : Dev nD) (Fw : (w : Fin cfg0.W) → Buf (Elt F) ((cfg0.win w).arr.view.loc (c.tc : Thread nD τ))) :
    (dats m 0 c).arrays Fw = iprop((((c.tc : Thread nD τ).loc main_v18) ↦{fullShare} Fw 6)
      ∗ bigSep (Finset.univ.erase (6 : Fin cfg0.W)) fun w =>
          ((cfg0.win w).arr.view.loc (c.tc : Thread nD τ) ↦[(cfg0.win w).arr.view.set]{(dats m 0 c).share w} Fw w : sProp 𝕄)) := by
  unfold Dat.arrays
  conv_lhs => rw [← Finset.insert_erase (Finset.mem_univ (6 : Fin cfg0.W))]
  rw [bigSep_insert (Finset.notMem_erase _ _), share6, (arr_whole0 6).set_eq_univ]
  rfl

theorem htail (c : Dev nD) (Q' : PUnit → sProp 𝕄) :
    iprop((iprop((dats m 0 c).arrays ((dats m 0 c).arrAt · cfg0.N) ∗ Pipeline.unscopedRest spec0 c (Vx m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => Cfg.toPCfg (Val := Elt F) (cfgs q)) defs₀) (Variants.lift Variants.none) (c.tc : Thread nD τ) none) Set.univ
          (Pipeline.chain ([hostOps1].map StableHlo.seq)) Q' := by
  rw [arrays_out]
  iintro ⟨Hk, Hb, ⟨H6, HR⟩, HZ⟩
  iapply (tail_run m c Q')
  isplitl [Hk HR]
  · iintro ⟨H6, HZ⟩
    iapply Hk
    isplitr [HZ]
    · isplitl [H6]
      · iexact H6
      · iexact HR
    · iexact HZ
  isplitl [Hb]; · iexact Hb
  isplitl [H6]; · iexact H6
  iexact HZ

/-- No host line before the region writes an argument. -/
theorem V_arg0 (c : Dev nD) : V m c main_arg0 = m ((c.tc : Thread nD τ).loc main_arg0) := by
  show StableHlo.after (List.flatten preOps) (fun b => m (c, b)) (Proc.devRef .tc main_arg0) = _
  simp only [preOps, List.flatten_cons, List.flatten_nil, List.append_nil, List.cons_append, List.nil_append,
    hostOps0, hostOps0_1, hostOps0_2, hostOps0_3, hostOps0_4, hostOps0_5]
  after_results
  try rfl
theorem V_arg1 (c : Dev nD) : V m c main_arg1 = m ((c.tc : Thread nD τ).loc main_arg1) := by
  show StableHlo.after (List.flatten preOps) (fun b => m (c, b)) (Proc.devRef .tc main_arg1) = _
  simp only [preOps, List.flatten_cons, List.flatten_nil, List.append_nil, List.cons_append, List.nil_append,
    hostOps0, hostOps0_1, hostOps0_2, hostOps0_3, hostOps0_4, hostOps0_5]
  after_results
  try rfl
theorem V_arg2 (c : Dev nD) : V m c main_arg2 = m ((c.tc : Thread nD τ).loc main_arg2) := by
  show StableHlo.after (List.flatten preOps) (fun b => m (c, b)) (Proc.devRef .tc main_arg2) = _
  simp only [preOps, List.flatten_cons, List.flatten_nil, List.append_nil, List.cons_append, List.nil_append,
    hostOps0, hostOps0_1, hostOps0_2, hostOps0_3, hostOps0_4, hostOps0_5]
  after_results
  try rfl

theorem Vx_v21 (c : Dev nD) : Vx m c main_v21 = tailFn (F := F) ((dats m 0 c).arrAt 6 cfg0.N) := by
  unfold Vx
  simp only [List.flatten_cons, List.flatten_nil, List.append_nil, hostOps1]
  after_results
  rw [Wx_out]
  rfl
theorem Vx_arg0 (c : Dev nD) : Vx m c main_arg0 = m ((c.tc : Thread nD τ).loc main_arg0) := by
  unfold Vx
  simp only [List.flatten_cons, List.flatten_nil, List.append_nil, hostOps1]
  after_results
  rw [Wx_ne m c main_arg0 (by decide)]
  exact V_arg0 m c
theorem Vx_arg1 (c : Dev nD) : Vx m c main_arg1 = m ((c.tc : Thread nD τ).loc main_arg1) := by
  unfold Vx
  simp only [List.flatten_cons, List.flatten_nil, List.append_nil, hostOps1]
  after_results
  rw [Wx_ne m c main_arg1 (by decide)]
  exact V_arg1 m c
theorem Vx_arg2 (c : Dev nD) : Vx m c main_arg2 = m ((c.tc : Thread nD τ).loc main_arg2) := by
  unfold Vx
  simp only [List.flatten_cons, List.flatten_nil, List.append_nil, hostOps1]
  after_results
  rw [Wx_ne m c main_arg2 (by decide)]
  exact V_arg2 m c

set_option backward.isDefEq.respectTransparency.types false in
/-- Every weakly fair execution of @main terminates; the result is the host tail of the region's output array as
    the library computes it from the proof data, and the three arguments end as they were launched. -/
theorem run_main : θ_run defs (onTc (τ := τ) (main (F := F))) ⟨m, fun _ => 0, ρ⟩ (fun r => ∀ c : Dev nD,
      r.2.mem ((c.tc : Thread nD τ).loc main_v21) = tailFn (F := F) ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_noSem_pf_tail (fun p => (cfgs p).toPCfg) (fun p => (cfgs p).toPCfg_adm) (dats m) () cellOf_inj 0
    winFacts₀0 (Pipeline.PreFacts.none _) emb₁ defs₀ Variants.none m ρ main
    (fun _ => Pipeline.chain ([hostOps1].map StableHlo.seq))
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m) (hsplit := hsplit m) (hpf := fun _ k => k.elim0)
    (X := fun _ => iprop(emp)) (Y := fun _ => iprop(emp))
    (Z := fun c => Pipeline.unscopedRest spec0 c (V m c)) (Z' := fun c => Pipeline.unscopedRest spec0 c (Vx m c))
    (hX := fun c => by
      rw [Pipeline.unscopedRestP_none]
      iintro H; isplitr
      · iempintro
      · iexact H)
    (hin := fun c => (show iprop(emp ∗ _ ∗ (Pipeline.scopedRest spec0 c : sProp 𝕄)) ⊢ (Pipeline.scopedRest spec0 c : sProp 𝕄) from by
      iintro ⟨-, -, HR⟩; iexact HR))
    (hout := fun c => (show (Pipeline.scopedRest spec0 c : sProp 𝕄) ⊢ iprop(emp ∗ (Pipeline.scopedRest spec0 c : sProp 𝕄)) from by
      iintro H; isplitr
      · iempintro
      · iexact H))
    (htail := htail m)
    (QY := fun c s => ∀ b ∈ Pipeline.restRefs sig spec0, s.mem ((c.tc : Thread nD τ).loc b) = Vx m c b)
    (hY := fun c s' => by
      iintro ⟨-, HU, HSI⟩
      unfold Pipeline.unscopedRest
      imodintro
      iapply (pointsTo_read_all (Pipeline.restRefs sig spec0) (fun b => (c.tc : Thread nD τ).loc b) (Vx m c) s')
      isplitl [HU] <;> iassumption)
    (hQ := fun s h c => by
      have hq := (h c).2.2
      exact ⟨(hq main_v21 (Pipeline.mem_restRefs_of _ rfl (by decide))).trans (Vx_v21 m c),
        (hq main_arg0 (Pipeline.mem_restRefs_of _ rfl (by decide))).trans (Vx_arg0 m c),
        (hq main_arg1 (Pipeline.mem_restRefs_of _ rfl (by decide))).trans (Vx_arg1 m c),
        (hq main_arg2 (Pipeline.mem_restRefs_of _ rfl (by decide))).trans (Vx_arg2 m c)⟩)

end Cert.Kernel.Hand

end
-- ==== Proof.KI.Runs.lean ====
/-
  The pipeline of the one pallas_call, seen from its body: the contents of the TensorCore's buffers when the
  region is entered (the host lines before it folded over the launch memory), each window's block at a grid
  point read off its array, the body's one branch condition (the second grid coordinate is zero: the first
  column tile of a row of tiles) decided over the 4 x 4 grid, and that an input window's staging buffer holds
  its block at every point, refetched there or not.
-/
import proofs.«173711_j88081189306970_1_alg».proof.Proof.Gen.KernelIdeal.Launch
import proofs.«173711_j88081189306970_1_alg».proof.Proof.Gen.KernelIdeal.Skeleton
import proofs.«173711_j88081189306970_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host lines before the region, stretch by stretch. -/
abbrev preOps : List (List (HloOp τ sig (Elt F))) := [hostOps0, hostOps0_1, hostOps0_2, hostOps0_3, hostOps0_4, hostOps0_5]

/-- Core `c`'s buffers when the region is entered: the launch memory after the host lines before it. -/
abbrev V0 (c : Dev nD) : Valuation τ sig (Elt F) := StableHlo.after (List.flatten (preOps (F := F))) (fun b => m (c, b))
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, refetched there or not, for any
    proof data whose array is the entry contents and whose body leaves the block in place: where the block is
    not refetched its index has not moved. One statement per input window. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The body's branch: the second grid coordinate is zero. -/
abbrev cond0_0 (i : grid0.Coords) : Prop := (Scalar.cmpi .ne (Scalar.extui (Scalar.cmpi .eq (BitVec.ofNat 32 (i 1).val) 0#32)) 0#32) = 1#1
/-- It holds at the points 0, 4, 8, 12. -/
theorem hcond0_0 : ∀ t : Fin cfg0.N, cond0_0 (grid0.coords t) ↔ t.val % 4 = 0 :=
  (by decide +kernel : ∀ t : Fin grid0.N, cond0_0 (grid0.coords t) ↔ t.val % 4 = 0)

/-- One staging buffer of the output window, through which its contents are stated. -/
abbrev VO : View sig .tc .vmem S1x1x128 .f32 := (Memref.whole cc0_stg6_0 : Memref sig .tc .vmem S1x1x128 .f32).view

/-- Each window's current staging memref at point `t`, as the pipeline passes it, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x128 .f32 := win0_6.stage (cfg0.slots t 6)
abbrev hs6 (t : Fin cfg0.N) : (ms6 t).IsWhole := hstage0_6 ((cfg0.slots t 6).cast nbuf0_6)

end Cert.KernelIdeal.Hand

end
-- ==== Proof.KI.RunA.lean ====
/-
  The kernel body at a point of the first column tile (the branch taken): the output block is zeroed, the six
  input blocks are loaded, and the tile's total is added to the zeroed block and stored. The run is the
  executor's; the pieces the output's staging buffer ends with are the witness it finds.
-/
import proofs.«173711_j88081189306970_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : cond0_0 i)
    (x0 x1 x2 x3 x4 x5 : Vec F S1024x256 .bf16) :
    { L : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__nt_xent_kernel i arg2 harg2 arg3 harg3 arg4 harg4 arg5 harg5 arg6 harg6 arg7 harg7 arg8 harg8) K } := by
  refine ⟨?_, fun E K => ?run⟩
  case run =>
    simp only [cc0__nt_xent_kernel_eq_skeleton]; unfold cc0__nt_xent_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Hand

end
-- ==== Proof.KI.RunB.lean ====
/-
  The kernel body at a point of a later column tile (the branch not taken): the six input blocks are loaded, and
  the tile's total is added to what the output block held and stored back.
-/
import proofs.«173711_j88081189306970_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : ¬cond0_0 i)
    (x0 x1 x2 x3 x4 x5 : Vec F S1024x256 .bf16) (xo : Vec F S1x1x128 .f32) :
    { L : List (View.Piece (Elt F) S1x1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc0__nt_xent_kernel i arg2 harg2 arg3 harg3 arg4 harg4 arg5 harg5 arg6 harg6 arg7 harg7 arg8 harg8) K } := by
  refine ⟨?_, fun E K => ?run⟩
  case run =>
    simp only [cc0__nt_xent_kernel_eq_skeleton]; unfold cc0__nt_xent_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

end Cert.KernelIdeal.Hand

end
-- ==== Proof.KI.Frame.lean ====
/-
  The proof data of the pallas_call and its body obligation. After the body at a grid point each input window's
  staging buffer holds its block (the body only loads it); the output window's holds the running total of its row
  of tiles: at the first column tile the tile's total over a zeroed block, at a later one the tile's total added to
  what the point before left (the output block is not written back between the column tiles of one row).
  The three normalised arrays are each read through two windows, so each is held at two half shares.
-/
import proofs.«173711_j88081189306970_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the first-column-tile run leaves tile the output block. -/
theorem cover0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : cond0_0 i)
    (x0 x1 x2 x3 x4 x5 : Vec F S1024x256 .bf16) (y : S1x1x128.Idx) :
    ∃ pc ∈ (kernelRun0_A c i arg2 harg2 arg3 harg3 arg4 harg4 arg5 harg5 arg6 harg6 arg7 harg7 arg8 harg8 hc0 x0 x1 x2 x3 x4 x5).1, y ∈ pc.1.set :=
  View.cover_of_tiledL (kernelRun0_A c i arg2 harg2 arg3 harg3 arg4 harg4 arg5 harg5 arg6 harg6 arg7 harg7 arg8 harg8 hc0 x0 x1 x2 x3 x4 x5).1 S1x1x128.size (by sl_kernel_rfl) y

/-- What that run leaves in the output's staging buffer. -/
def out0_A (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : cond0_0 i)
    (x0 x1 x2 x3 x4 x5 : Vec F S1024x256 .bf16) : Vec F S1x1x128 .f32 :=
  VO.read (Elt F) (VO.writes (Elt F) VO.junk (kernelRun0_A c i arg2 harg2 arg3 harg3 arg4 harg4 arg5 harg5 arg6 harg6 arg7 harg7 arg8 harg8 hc0 x0 x1 x2 x3 x4 x5).1)

/-- The pieces a later-column-tile run leaves tile the output block. -/
theorem cover0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : ¬cond0_0 i)
    (x0 x1 x2 x3 x4 x5 : Vec F S1024x256 .bf16) (xo : Vec F S1x1x128 .f32) (y : S1x1x128.Idx) :
    ∃ pc ∈ (kernelRun0_B c i arg2 harg2 arg3 harg3 arg4 harg4 arg5 harg5 arg6 harg6 arg7 harg7 arg8 harg8 hc0 x0 x1 x2 x3 x4 x5 xo).1, y ∈ pc.1.set :=
  View.cover_of_tiledL (kernelRun0_B c i arg2 harg2 arg3 harg3 arg4 harg4 arg5 harg5 arg6 harg6 arg7 harg7 arg8 harg8 hc0 x0 x1 x2 x3 x4 x5 xo).1 S1x1x128.size (by sl_kernel_rfl) y

/-- What that run leaves in the output's staging buffer, over what the buffer held. -/
def out0_B (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : ¬cond0_0 i)
    (x0 x1 x2 x3 x4 x5 : Vec F S1024x256 .bf16) (xo : Vec F S1x1x128 .f32) : Vec F S1x1x128 .f32 :=
  VO.read (Elt F) (VO.writes (Elt F) VO.junk (kernelRun0_B c i arg2 harg2 arg3 harg3 arg4 harg4 arg5 harg5 arg6 harg6 arg7 harg7 arg8 harg8 hc0 x0 x1 x2 x3 x4 x5 xo).1)

/-- The accumulation: what the output's staging buffer holds after the body at position `n`. -/
def outsAt0 (c : Dev nD) : (n : ℕ) → n < cfg0.N → Vec F S1x1x128 .f32
  | 0, hn => out0_A c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩)
  | n + 1, hn =>
    if h0 : (n + 1) % 4 = 0 then
      out0_A c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩)
    else
      out0_B c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn))

theorem outsAt0_A (c : Dev nD) (t : Fin cfg0.N) (h0 : t.val % 4 = 0) :
    outsAt0 m c t.val t.isLt = out0_A c (grid0.coords t) (ms0 t) (hs0 t) (ms1 t) (hs1 t) (ms2 t) (hs2 t) (ms3 t) (hs3 t) (ms4 t) (hs4 t) (ms5 t) (hs5 t) (ms6 t) (hs6 t) ((hcond0_0 t).mpr h0) (iblk m c 0 t) (iblk m c 1 t) (iblk m c 2 t) (iblk m c 3 t) (iblk m c 4 t) (iblk m c 5 t) := by
  obtain ⟨n, hn⟩ := t
  cases n with
  | zero => exact rfl
  | succ n => exact (dif_pos h0).trans rfl

theorem outsAt0_B (c : Dev nD) (t : Fin cfg0.N) (h0 : ¬t.val % 4 = 0) :
    outsAt0 m c t.val t.isLt = out0_B c (grid0.coords t) (ms0 t) (hs0 t) (ms1 t) (hs1 t) (ms2 t) (hs2 t) (ms3 t) (hs3 t) (ms4 t) (hs4 t) (ms5 t) (hs5 t) (ms6 t) (hs6 t) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d
theorem before0_5 (c : Dev nD) (t : Fin cfg0.N) (d) : (dats m 0 c).before 5 t d = iblk m c 5 t :=
  before_in5_of m (dats m 0 c) (A_eq m c 5) (after0_5 m c) t d

/-- At a later column tile the output's staging buffer holds what the point before left: the block was not
    written back between. -/
theorem before0_6_B (c : Dev nD) (t : Fin cfg0.N) (h0 : ¬t.val % 4 = 0) (d) :
    (dats m 0 c).before 6 t d = (outsAt0 m c (t.val - 1) (Nat.lt_of_le_of_lt (Nat.sub_le _ _) t.isLt)) := by
  have hN : t.val < 16 := lt_of_lt_of_eq t.isLt (show cfg0.N = 16 from N_0)
  rw [Dat.before_out_kept _ 6 rfl t (by omega) (Bool.eq_false_iff.mpr fun h => by have := (flush0_6 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  have hN : t.val < 16 := lt_of_lt_of_eq t.isLt (show cfg0.N = 16 from N_0)
  by_cases h0 : t.val % 4 = 0
  · rw [outsAt0_A m c t h0]
    unfold out0_A
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ ((hcond0_0 t).mpr h0) (iblk m c 0 t) (iblk m c 1 t) (iblk m c 2 t) (iblk m c 3 t) (iblk m c 4 t) (iblk m c 5 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_A c _ _ _ _ _ _ _ _ _ _ _ _ _ _ _ _ _ _ _ _ _ _)
  · rw [outsAt0_B m c t h0]
    simp only [before0_6_B m c t h0]
    unfold out0_B
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ (fun h => h0 ((hcond0_0 t).mp h)) (iblk m c 0 t) (iblk m c 1 t) (iblk m c 2 t) (iblk m c 3 t) (iblk m c 4 t) (iblk m c 5 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (cover0_B c _ _ _ _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Tail.lean ====
/-
  The host lines after the region as one function of the region's result array: the first lane of each of the
  four row blocks, summed.
-/
import proofs.«173711_j88081189306970_1_alg».proof.Proof.Gen.KernelIdeal.Launch

noncomputable section

namespace Cert.KernelIdeal.Hand

open Cert.KernelIdeal Cert.KernelIdeal.Gen
open Idealize.ShloMosaic Idealize.ShloMosaic.TcCoe

variable {F : FTy → Type} [FloatOps F]

/-- Slice lane 0 of each row block, drop the unit axes, add the four entries to zero. -/
def tailFn (a : (⟨S4x1x128, .f32⟩ : BufTy).Contents (Elt F)) : (⟨S_, .f32⟩ : BufTy).Contents (Elt F) :=
  Host.reduceAdd (shapeCast S4 (extractStridedSlice S4x1x1 ![0, 0, 0] a slices_S4x1x128_S4x1x1_0_0_0) shapeCasts_S4x1x1_S4)
    (constant S_ .f32 0x00000000#32) reducesTo_S4_S_d0 h_S_

end Cert.KernelIdeal.Hand

end
-- ==== Proof.KI.Launch.lean ====
/-
  The launch: @main is host lines, the one kernel region, host lines. The three normalised arrays are each handed
  to the kernel through two windows; each is split into its two half shares at the region's entry. The run ends
  with the result scalar at the host tail's function of the region's output array and the arguments unchanged.
-/
import proofs.«173711_j88081189306970_1_alg».proof.Proof.KI.Frame
import proofs.«173711_j88081189306970_1_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem preOps_fresh : (preOps (F := F)).Forall fun ops => ops.Forall fun op => op.fresh = ∅ := by
  simp only [List.Forall]; repeat' constructor

/-- @main reduces to the region continued by the last host line, entered at the contents the earlier lines leave. -/
theorem hmain : Pipeline.HMainK (Ix := Unit) (Name := ℕ) (U := UR sig nD τ) (Lvl := ℕ) cfgs 0 defs₀ Variants.none m (main (F := F)) (V m)
      (fun _ => Pipeline.chain ([hostOps1].map StableHlo.seq)) :=
  Pipeline.hmain_around cfgs 0 defs₀ Variants.none m main preOps [hostOps1]
    (by simp only [List.Forall]; exact ⟨hostOps0_sub, hostOps0_1_sub, hostOps0_2_sub, hostOps0_3_sub, hostOps0_4_sub, hostOps0_5_sub⟩)
    preOps_fresh (fun c => (main_chain c).trans rfl)

/-- The buffers' contents when the region is left: the output array at what the write-backs made of it, every
    other buffer as the region found it. -/
def Wx (c : Dev nD) : Valuation τ sig (Elt F) := by
  classical
  exact Function.update (V0 m c) (Proc.devRef .tc main_v18) ((dats m 0 c).arrAt 6 cfg0.N)

/-- The contents after the last host line. -/
def Vx (c : Dev nD) (b : Ref sig .tc) : Buf (Elt F) ((c : Thread nD τ).loc b) :=
  StableHlo.after (List.flatten [hostOps1]) (Wx m c) (Proc.devRef .tc b)

/-- The array at the region's entry is the proof data's entry contents. -/
theorem arrAt0 {c : Dev nD} (dat : Dat τ (Elt F) Unit ℕ (UR sig nD τ) ℕ cfg0 c) (w : Fin cfg0.W) : dat.arrAt w 0 = dat.A w := rfl

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare.left := rfl
theorem share5 (c : Dev nD) : (dats m 0 c).share 5 = fullShare.right := rfl
theorem share6 (c : Dev nD) : (dats m 0 c).share 6 = fullShare := rfl

/-- Each normalised array, whole at the region's entry, is split into the two half shares its two windows hold;
    the output array goes to its one window whole. -/
theorem hsplit (c : Dev nD) : (Pipeline.arrBufs spec0 c (V m c) : sProp 𝕄) ⊢ (dats m 0 c).arrays ((dats m 0 c).arrAt · 0) := by
  classical
  unfold Pipeline.arrBufs Dat.arrays
  rw [bigSep_eq_bigSepL_of_eq [main_v5, main_v11, main_v17, main_v18] (by decide) (by decide), bigSep_W0]
  simp only [bigSepL_cons_cons, bigSepL_singleton, arrAt0, A_eq, share0, share1, share2, share3, share4, share5, share6]
  rw [View.set_whole, View.set_whole, View.set_whole, View.set_whole]
  refine (show iprop(((c.tc : Thread nD τ).loc main_v5 ↦{fullShare} V m c main_v5) ∗ ((c.tc : Thread nD τ).loc main_v11 ↦{fullShare} V m c main_v11)
      ∗ ((c.tc : Thread nD τ).loc main_v17 ↦{fullShare} V m c main_v17) ∗ ((c.tc : Thread nD τ).loc main_v18 ↦{fullShare} V m c main_v18)) ⊢ iprop(
      ((c.tc : Thread nD τ).loc main_v5 ↦{fullShare.left} V m c main_v5) ∗ ((c.tc : Thread nD τ).loc main_v5 ↦{fullShare.right} V m c main_v5)
      ∗ ((c.tc : Thread nD τ).loc main_v11 ↦{fullShare.left} V m c main_v11) ∗ ((c.tc : Thread nD τ).loc main_v11 ↦{fullShare.right} V m c main_v11)
      ∗ ((c.tc : Thread nD τ).loc main_v17 ↦{fullShare.left} V m c main_v17) ∗ ((c.tc : Thread nD τ).loc main_v17 ↦{fullShare.right} V m c main_v17)
      ∗ ((c.tc : Thread nD τ).loc main_v18 ↦{fullShare} V m c main_v18)) from ?_)
  iintro ⟨H5, H11, H17, H18⟩
  ihave H5 := (pointsTo_share (PosShare.mem_left_op_right fullShare)).1 $$ H5
  ihave H11 := (pointsTo_share (PosShare.mem_left_op_right fullShare)).1 $$ H11
  ihave H17 := (pointsTo_share (PosShare.mem_left_op_right fullShare)).1 $$ H17
  icases H5 with ⟨H5a, H5b⟩
  icases H11 with ⟨H11a, H11b⟩
  icases H17 with ⟨H17a, H17b⟩
  isplitl [H5a]; · iexact H5a
  isplitl [H5b]; · iexact H5b
  isplitl [H11a]; · iexact H11a
  isplitl [H11b]; · iexact H11b
  isplitl [H17a]; · iexact H17a
  isplitl [H17b]; · iexact H17b
  iexact H18

/-! ### The last host line -/

theorem Wx_out (c : Dev nD) : Wx m c (Proc.devRef .tc main_v18) = (dats m 0 c).arrAt 6 cfg0.N := by
  unfold Wx; exact Function.update_self _ _ _
theorem Wx_ne (c : Dev nD) (b : Ref sig .tc) (hb : b ≠ main_v18) : Wx m c (Proc.devRef .tc b) = V m c b := by
  unfold Wx; exact Function.update_of_ne (StableHlo.devRef_ne_of_ne hb) _ _

/-- The buffers the last host line runs within: the output array and every buffer that bypasses the region. -/
def tailS : Finset (DevRef τ sig) :=
  (insert main_v18 (Pipeline.restRefs sig spec0)).map ⟨Proc.devRef (sig := sig) .tc, Proc.devRef_injective _⟩

theorem v18_not_rest : main_v18 ∉ Pipeline.restRefs sig spec0 := fun h =>
  (Finset.mem_sdiff.mp h).2 (Finset.mem_image.mpr ⟨6, Finset.mem_univ _, rfl⟩)

theorem mem_tailS {b : Ref sig .tc} (h : b = main_v18 ∨ b ∈ Pipeline.restRefs sig spec0) : Proc.devRef .tc b ∈ tailS :=
  Finset.mem_map_of_mem _ (Finset.mem_insert.mpr h)

/-- Held at a valuation, they are the output array and the bypassing buffers at it. -/
theorem held_tailS (c : Dev nD) (W : Valuation τ sig (Elt F)) :
    (StableHlo.held (c.tc : Thread nD τ) tailS W : sProp 𝕄)
      = iprop((((c.tc : Thread nD τ).loc main_v18) ↦{fullShare} W (Proc.devRef .tc main_v18))
          ∗ Pipeline.unscopedRest spec0 c (fun b => W (Proc.devRef .tc b))) := by
  unfold StableHlo.held tailS Pipeline.unscopedRest
  rw [bigSep_map, bigSep_insert v18_not_rest]
  rfl

/-- The bypassing buffers are as the region found them when it is left. -/
theorem rest_Wx (c : Dev nD) :
    (Pipeline.unscopedRest spec0 c (fun b => Wx m c (Proc.devRef .tc b)) : sProp 𝕄) = Pipeline.unscopedRest spec0 c (V m c) := by
  unfold Pipeline.unscopedRest
  exact bigSep_congr fun b hb => by beta_reduce; rw [Wx_ne m c b fun e => v18_not_rest (e ▸ hb)]
theorem rest_Vx (c : Dev nD) :
    (Pipeline.unscopedRest spec0 c (fun b => StableHlo.after (List.flatten [hostOps1]) (Wx m c) (Proc.devRef .tc b)) : sProp 𝕄)
      = Pipeline.unscopedRest spec0 c (Vx m c) := rfl

theorem tail_sub' : (hostOps1 : List (HloOp τ sig (Elt F))).Forall fun op => op.bufs ⊆ tailS := by
  simp only [hostOps1, List.Forall]
  refine ⟨?_, ?_, ?_, ?_⟩
  · rw [StableHlo.unary_bufs]
    exact Finset.insert_subset_iff.mpr ⟨mem_tailS (.inl rfl),
      Finset.singleton_subset_iff.mpr (mem_tailS (.inr (Pipeline.mem_restRefs_of _ rfl (by decide))))⟩
  · rw [StableHlo.reshape_bufs]
    exact Finset.insert_subset_iff.mpr ⟨mem_tailS (.inr (Pipeline.mem_restRefs_of _ rfl (by decide))),
      Finset.singleton_subset_iff.mpr (mem_tailS (.inr (Pipeline.mem_restRefs_of _ rfl (by decide))))⟩
  · rw [StableHlo.nullary_bufs]
    exact Finset.singleton_subset_iff.mpr (mem_tailS (.inr (Pipeline.mem_restRefs_of _ rfl (by decide))))
  · rw [StableHlo.binary_bufs]
    exact Finset.insert_subset_iff.mpr ⟨mem_tailS (.inr (Pipeline.mem_restRefs_of _ rfl (by decide))),
      Finset.insert_subset_iff.mpr ⟨mem_tailS (.inr (Pipeline.mem_restRefs_of _ rfl (by decide))),
        Finset.singleton_subset_iff.mpr (mem_tailS (.inr (Pipeline.mem_restRefs_of _ rfl (by decide))))⟩⟩

theorem tail_sub : ∀ ops ∈ ([hostOps1] : List (List (HloOp τ sig (Elt F)))), ∀ op ∈ ops, op.bufs ⊆ tailS := by
  intro ops hops op hop
  rw [List.mem_singleton] at hops; subst hops
  exact (List.forall_iff_forall_mem.mp tail_sub') op hop

theorem tail_fresh : ∀ ops ∈ ([hostOps1] : List (List (HloOp τ sig (Elt F)))), ∀ op ∈ ops, op.fresh = ∅ := by
  intro ops hops op hop
  rw [List.mem_singleton] at hops; subst hops
  exact (List.forall_iff_forall_mem.mp (show (hostOps1 : List (HloOp τ sig (Elt F))).Forall fun op => op.fresh = ∅ from by
    simp only [hostOps1, List.Forall]; exact ⟨rfl, rfl, rfl, rfl⟩)) op hop

/-- The last host line does not write the output array. -/
theorem after_tail_v18 (W : Valuation τ sig (Elt F)) :
    StableHlo.after (List.flatten [hostOps1]) W (Proc.devRef .tc main_v18) = W (Proc.devRef .tc main_v18) := by
  simp only [List.flatten_cons, List.flatten_nil, List.append_nil, hostOps1]
  after_results

set_option backward.isDefEq.respectTransparency.types false in
/-- The last host line, run holding the output array and the bypassing buffers. -/
theorem tail_run (c : Dev nD) (Q' : PUnit → sProp 𝕄) :
    iprop((iprop((((c.tc : Thread nD τ).loc main_v18) ↦{fullShare} (dats m 0 c).arrAt 6 cfg0.N) ∗ Pipeline.unscopedRest spec0 c (Vx m c)) -∗ Q' ⟨⟩)
        ∗ boundary (c.tc : Thread nD τ) ∗ (((c.tc : Thread nD τ).loc main_v18) ↦{fullShare} (dats m 0 c).arrAt 6 cfg0.N) ∗ Pipeline.unscopedRest spec0 c (V m c))
      ⊢ wp frame (wpE (Pipeline.defs (fun q => Cfg.toPCfg (Val := Elt F) (cfgs q)) defs₀) (Variants.lift Variants.none) (c.tc : Thread nD τ) none) Set.univ
          (Pipeline.chain ([hostOps1].map StableHlo.seq)) Q' := by
  have hW : (StableHlo.held (c.tc : Thread nD τ) tailS (Wx m c) : sProp 𝕄)
      = iprop((((c.tc : Thread nD τ).loc main_v18) ↦{fullShare} (dats m 0 c).arrAt 6 cfg0.N) ∗ Pipeline.unscopedRest spec0 c (V m c)) := by
    rw [held_tailS, Wx_out, rest_Wx]
  have hW' : (StableHlo.held (c.tc : Thread nD τ) tailS (StableHlo.after (List.flatten [hostOps1]) (Wx m c)) : sProp 𝕄)
      = iprop((((c.tc : Thread nD τ).loc main_v18) ↦{fullShare} (dats m 0 c).arrAt 6 cfg0.N) ∗ Pipeline.unscopedRest spec0 c (Vx m c)) := by
    rw [held_tailS, after_tail_v18, Wx_out, rest_Vx]
  have h := Pipeline.wp_seqs_then (Ix := Unit) (Name := ℕ) (U := UR sig nD τ) (Lvl := ℕ) (fun q => Cfg.toPCfg (Val := Elt F) (cfgs q)) defs₀ Variants.none c tailS []
    (K := Q') [hostOps1] tail_sub tail_fresh (Wx m c)
  rw [List.append_nil, Pipeline.chain_nil, hW, hW'] at h
  iintro ⟨Hk, Hb, H6, HZ⟩
  iapply h $$ [Hb H6 HZ]
  · isplitl [Hb]; · iexact Hb
    isplitl [H6]; · iexact H6
    iexact HZ
  iintro ⟨-, H⟩
  rw [wp_pure]; imodintro
  iapply Hk; iexact H

/-- The pipeline's arrays are the output array, whole, and the six input windows' shares. -/
theorem arrays_out (c : Dev nD) (Fw : (w : Fin cfg0.W) → Buf (Elt F) ((cfg0.win w).arr.view.loc (c.tc : Thread nD τ))) :
    (dats m 0 c).arrays Fw = iprop((((c.tc : Thread nD τ).loc main_v18) ↦{fullShare} Fw 6)
      ∗ bigSep (Finset.univ.erase (6 : Fin cfg0.W)) fun w =>
          ((cfg0.win w).arr.view.loc (c.tc : Thread nD τ) ↦[(cfg0.win w).arr.view.set]{(dats m 0 c).share w} Fw w : sProp 𝕄)) := by
  unfold Dat.arrays
  conv_lhs => rw [← Finset.insert_erase (Finset.mem_univ (6 : Fin cfg0.W))]
  rw [bigSep_insert (Finset.notMem_erase _ _), share6, (arr_whole0 6).set_eq_univ]
  rfl

theorem htail (c : Dev nD) (Q' : PUnit → sProp 𝕄) :
    iprop((iprop((dats m 0 c).arrays ((dats m 0 c).arrAt · cfg0.N) ∗ Pipeline.unscopedRest spec0 c (Vx m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (fun q => Cfg.toPCfg (Val := Elt F) (cfgs q)) defs₀) (Variants.lift Variants.none) (c.tc : Thread nD τ) none) Set.univ
          (Pipeline.chain ([hostOps1].map StableHlo.seq)) Q' := by
  rw [arrays_out]
  iintro ⟨Hk, Hb, ⟨H6, HR⟩, HZ⟩
  iapply (tail_run m c Q')
  isplitl [Hk HR]
  · iintro ⟨H6, HZ⟩
    iapply Hk
    isplitr [HZ]
    · isplitl [H6]
      · iexact H6
      · iexact HR
    · iexact HZ
  isplitl [Hb]; · iexact Hb
  isplitl [H6]; · iexact H6
  iexact HZ

/-- No host line before the region writes an argument. -/
theorem V_arg0 (c : Dev nD) : V m c main_arg0 = m ((c.tc : Thread nD τ).loc main_arg0) := by
  show StableHlo.after (List.flatten preOps) (fun b => m (c, b)) (Proc.devRef .tc main_arg0) = _
  simp only [preOps, List.flatten_cons, List.flatten_nil, List.append_nil, List.cons_append, List.nil_append,
    hostOps0, hostOps0_1, hostOps0_2, hostOps0_3, hostOps0_4, hostOps0_5]
  after_results
  try rfl
theorem V_arg1 (c : Dev nD) : V m c main_arg1 = m ((c.tc : Thread nD τ).loc main_arg1) := by
  show StableHlo.after (List.flatten preOps) (fun b => m (c, b)) (Proc.devRef .tc main_arg1) = _
  simp only [preOps, List.flatten_cons, List.flatten_nil, List.append_nil, List.cons_append, List.nil_append,
    hostOps0, hostOps0_1, hostOps0_2, hostOps0_3, hostOps0_4, hostOps0_5]
  after_results
  try rfl
theorem V_arg2 (c : Dev nD) : V m c main_arg2 = m ((c.tc : Thread nD τ).loc main_arg2) := by
  show StableHlo.after (List.flatten preOps) (fun b => m (c, b)) (Proc.devRef .tc main_arg2) = _
  simp only [preOps, List.flatten_cons, List.flatten_nil, List.append_nil, List.cons_append, List.nil_append,
    hostOps0, hostOps0_1, hostOps0_2, hostOps0_3, hostOps0_4, hostOps0_5]
  after_results
  try rfl

theorem Vx_v21 (c : Dev nD) : Vx m c main_v21 = tailFn (F := F) ((dats m 0 c).arrAt 6 cfg0.N) := by
  unfold Vx
  simp only [List.flatten_cons, List.flatten_nil, List.append_nil, hostOps1]
  after_results
  rw [Wx_out]
  rfl
theorem Vx_arg0 (c : Dev nD) : Vx m c main_arg0 = m ((c.tc : Thread nD τ).loc main_arg0) := by
  unfold Vx
  simp only [List.flatten_cons, List.flatten_nil, List.append_nil, hostOps1]
  after_results
  rw [Wx_ne m c main_arg0 (by decide)]
  exact V_arg0 m c
theorem Vx_arg1 (c : Dev nD) : Vx m c main_arg1 = m ((c.tc : Thread nD τ).loc main_arg1) := by
  unfold Vx
  simp only [List.flatten_cons, List.flatten_nil, List.append_nil, hostOps1]
  after_results
  rw [Wx_ne m c main_arg1 (by decide)]
  exact V_arg1 m c
theorem Vx_arg2 (c : Dev nD) : Vx m c main_arg2 = m ((c.tc : Thread nD τ).loc main_arg2) := by
  unfold Vx
  simp only [List.flatten_cons, List.flatten_nil, List.append_nil, hostOps1]
  after_results
  rw [Wx_ne m c main_arg2 (by decide)]
  exact V_arg2 m c

set_option backward.isDefEq.respectTransparency.types false in
/-- Every weakly fair execution of @main terminates; the result is the host tail of the region's output array as
    the library computes it from the proof data, and the three arguments end as they were launched. -/
theorem run_main : θ_run defs (onTc (τ := τ) (main (F := F))) ⟨m, fun _ => 0, ρ⟩ (fun r => ∀ c : Dev nD,
      r.2.mem ((c.tc : Thread nD τ).loc main_v21) = tailFn (F := F) ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  classical
  exact Pipeline.θ_run_region_noSem_pf_tail (fun p => (cfgs p).toPCfg) (fun p => (cfgs p).toPCfg_adm) (dats m) () cellOf_inj 0
    winFacts₀0 (Pipeline.PreFacts.none _) emb₁ defs₀ Variants.none m ρ main
    (fun _ => Pipeline.chain ([hostOps1].map StableHlo.seq))
    (fun c => (body_obligation m c).loose) block_pos0 arr_whole0 stage_whole0 (fun _ _ => rfl)
    (u₀ := initOf (Pipeline.cells cfgs cellOf_inj) (Pipeline.launchToks cfgs cellOf_inj)) (hu₀ := .rfl)
    (V := V m) (hmain := hmain m) (hsplit := hsplit m) (hpf := fun _ k => k.elim0)
    (X := fun _ => iprop(emp)) (Y := fun _ => iprop(emp))
    (Z := fun c => Pipeline.unscopedRest spec0 c (V m c)) (Z' := fun c => Pipeline.unscopedRest spec0 c (Vx m c))
    (hX := fun c => by
      rw [Pipeline.unscopedRestP_none]
      iintro H; isplitr
      · iempintro
      · iexact H)
    (hin := fun c => (show iprop(emp ∗ _ ∗ (Pipeline.scopedRest spec0 c : sProp 𝕄)) ⊢ (Pipeline.scopedRest spec0 c : sProp 𝕄) from by
      iintro ⟨-, -, HR⟩; iexact HR))
    (hout := fun c => (show (Pipeline.scopedRest spec0 c : sProp 𝕄) ⊢ iprop(emp ∗ (Pipeline.scopedRest spec0 c : sProp 𝕄)) from by
      iintro H; isplitr
      · iempintro
      · iexact H))
    (htail := htail m)
    (QY := fun c s => ∀ b ∈ Pipeline.restRefs sig spec0, s.mem ((c.tc : Thread nD τ).loc b) = Vx m c b)
    (hY := fun c s' => by
      iintro ⟨-, HU, HSI⟩
      unfold Pipeline.unscopedRest
      imodintro
      iapply (pointsTo_read_all (Pipeline.restRefs sig spec0) (fun b => (c.tc : Thread nD τ).loc b) (Vx m c) s')
      isplitl [HU] <;> iassumption)
    (hQ := fun s h c => by
      have hq := (h c).2.2
      exact ⟨(hq main_v21 (Pipeline.mem_restRefs_of _ rfl (by decide))).trans (Vx_v21 m c),
        (hq main_arg0 (Pipeline.mem_restRefs_of _ rfl (by decide))).trans (Vx_arg0 m c),
        (hq main_arg1 (Pipeline.mem_restRefs_of _ rfl (by decide))).trans (Vx_arg1 m c),
        (hq main_arg2 (Pipeline.mem_restRefs_of _ rfl (by decide))).trans (Vx_arg2 m c)⟩)

end Cert.KernelIdeal.Hand

end
-- ==== Proof.KI.Pieces.lean ====
/-
  What a run of the body leaves in the output's staging buffer, as the body's own arithmetic of the six input
  blocks and of what the output block held when the body read it: the zeroed block at a first column tile, the
  previous point's contents at a later one.
-/
import proofs.«173711_j88081189306970_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The unit rectangle of an input block starts at the origin. -/
private theorem hz2 : (![0, 0] : Fin 2 → Nat) = fun _ => 0 := funext fun a => by fin_cases a <;> rfl

/-- The unit rectangle of the output block starts at the origin. -/
private theorem hz3 : (![0, 0, 0] : Fin 3 → Nat) = fun _ => 0 := funext fun a => by fin_cases a <;> rfl

/-- The block the body stores: the body's arithmetic of the six input blocks, added to the block `acc` it read. -/
def stepOut (x0 x1 x2 x3 x4 x5 : Vec F S1024x256 .bf16) (acc : Vec F S1x1x128 .f32) : Vec F S1x1x128 .f32 :=
  k0_pay1 (k0_pay10 (k0_pay3 x0) (k0_pay4 x2) (k0_pay5 x3) (k0_pay6 x4) (k0_pay7 x5) (k0_pay8 x0 x1) (k0_pay9 x2 x3)) acc

/-- At a first column tile the body reads back the zeroed block. -/
theorem out0_A_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : cond0_0 i) (x0 x1 x2 x3 x4 x5 : Vec F S1024x256 .bf16) :
    out0_A (F := F) c i arg2 harg2 arg3 harg3 arg4 harg4 arg5 harg5 arg6 harg6 arg7 harg7 arg8 harg8 hc0 x0 x1 x2 x3 x4 x5 = stepOut x0 x1 x2 x3 x4 x5 (k0_pay2 (F := F)) := by
  unfold out0_A
  rw [View.read_writes_eq_canon _ _ _ (cover0_A c i arg2 harg2 arg3 harg3 arg4 harg4 arg5 harg5 arg6 harg6 arg7 harg7 arg8 harg8 hc0 x0 x1 x2 x3 x4 x5)]
  unfold kernelRun0_A
  dsimp only
  sl_unfold_words
  rw [View.canon_cons_unit_zero (S := S1x1x128) hz3, View.readCov_unit_zero (S := S1x1x128) _ hz3]
  unfold stepOut
  simp only [View.readAt_eq_ld, harg2.read_unread, harg3.read_unread, harg4.read_unread, harg5.read_unread,
    harg6.read_unread, harg7.read_unread, View.ld_unit_zero (S := S1024x256) hz2]

/-- At a later column tile it reads what the buffer held. -/
theorem out0_B_eq (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x256 .bf16) (harg4 : arg4.IsWhole) (arg5 : Memref sig .tc .vmem S1024x256 .bf16) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S1x1x128 .f32) (harg8 : arg8.IsWhole) (hc0 : ¬cond0_0 i) (x0 x1 x2 x3 x4 x5 : Vec F S1024x256 .bf16) (xo : Vec F S1x1x128 .f32) :
    out0_B (F := F) c i arg2 harg2 arg3 harg3 arg4 harg4 arg5 harg5 arg6 harg6 arg7 harg7 arg8 harg8 hc0 x0 x1 x2 x3 x4 x5 xo = stepOut x0 x1 x2 x3 x4 x5 xo := by
  unfold out0_B
  rw [View.read_writes_eq_canon _ _ _ (cover0_B c i arg2 harg2 arg3 harg3 arg4 harg4 arg5 harg5 arg6 harg6 arg7 harg7 arg8 harg8 hc0 x0 x1 x2 x3 x4 x5 xo)]
  unfold kernelRun0_B
  dsimp only
  sl_unfold_words
  rw [View.canon_unit_zero (S := S1x1x128) hz3]
  unfold stepOut
  simp only [View.readAt_eq_ld, harg2.read_unread, harg3.read_unread, harg4.read_unread, harg5.read_unread,
    harg6.read_unread, harg7.read_unread, harg8.read_unread, View.ld_unit_zero (S := S1024x256) hz2,
    View.ld_unit_zero (S := S1x1x128) hz3]

end Cert.KernelIdeal.Hand

end
-- ==== Proof.Terms.lean ====
/-
  What both programs compute, over the extended reals, from the three row-normalised arrays N0, N1, N2 (4096 rows of
  256 entries): for each pair of rows (a, b) the scaled similarity 2 * <Na_row, Nb_row>; the "positive" terms
  (2 s - 1)^2 for the pairs (0,0), (1,1), (2,2) of arrays and the "negative" terms (2 s)^2 for (0,1), (0,2), (1,2);
  the loss is the sum of all six 4096 x 4096 tables. The reference sums each table whole and adds the six sums; the
  kernel cuts every table into 4 x 4 tiles of 1024 x 1024, adds the six tile sums of a tile pair, accumulates the
  four column tiles of a row of tiles, and adds the four rows. The two groupings agree in any commutative monoid.
-/
import Idealize.ShloMosaic.PureOps.Ideal
import Idealize.ShloMosaic.Lib.ValueIdx
import Mathlib.Algebra.BigOperators.Fin
import Mathlib.Data.Fintype.BigOperators
import Mathlib.Logic.Equiv.Fin.Basic
import Mathlib.Tactic.Abel

noncomputable section

namespace Cert.Terms

open Idealize.ShloMosaic Idealize.ShloMosaic.ValueIdx

/-- A row-normalised array, index by index. -/
abbrev Arr : Type := (⟨2, ![4096, 256]⟩ : Shape).Idx → EReal

/-- Row `p` of row tile `i`. -/
def glue (i : Fin 4) (p : Fin 1024) : Fin 4096 := ⟨1024 * i.val + p.val, by omega⟩

/-- The inner product of row `a` of `A` and row `b` of `B`. -/
def dotE (A B : Arr) (a b : Fin 4096) : EReal := ∑ k : Fin 256, A (ix2 a k) * B (ix2 b k)

/-- (2 x - 1)^2 and (2 x)^2, with the two literals kept as their words. -/
def posE (x : EReal) : EReal :=
  FloatOps.mulf (F := Ideal) (FloatOps.subf (F := Ideal) (FloatOps.mulf (F := Ideal) x (FloatOps.ofBits (F := Ideal) .f32 0x40000000#32)) (FloatOps.ofBits (F := Ideal) .f32 0x3F800000#32))
    (FloatOps.subf (F := Ideal) (FloatOps.mulf (F := Ideal) x (FloatOps.ofBits (F := Ideal) .f32 0x40000000#32)) (FloatOps.ofBits (F := Ideal) .f32 0x3F800000#32))
def negE (x : EReal) : EReal :=
  FloatOps.mulf (F := Ideal) (FloatOps.mulf (F := Ideal) x (FloatOps.ofBits (F := Ideal) .f32 0x40000000#32)) (FloatOps.mulf (F := Ideal) x (FloatOps.ofBits (F := Ideal) .f32 0x40000000#32))

/-- The sum of a whole 4096 x 4096 table, and of its tile (i, j). -/
def pairSum (T : Fin 4096 → Fin 4096 → EReal) : EReal := ∑ a : Fin 4096, ∑ b : Fin 4096, T a b
def tileSum (T : Fin 4096 → Fin 4096 → EReal) (i j : Fin 4) : EReal := ∑ p : Fin 1024, ∑ q : Fin 1024, T (glue i p) (glue j q)

/-- The six tables. -/
def T00 (N0 N1 N2 : Arr) (a b : Fin 4096) : EReal := posE (dotE N0 N0 a b)
def T11 (N0 N1 N2 : Arr) (a b : Fin 4096) : EReal := posE (dotE N1 N1 a b)
def T22 (N0 N1 N2 : Arr) (a b : Fin 4096) : EReal := posE (dotE N2 N2 a b)
def T01 (N0 N1 N2 : Arr) (a b : Fin 4096) : EReal := negE (dotE N0 N1 a b)
def T02 (N0 N1 N2 : Arr) (a b : Fin 4096) : EReal := negE (dotE N0 N2 a b)
def T12 (N0 N1 N2 : Arr) (a b : Fin 4096) : EReal := negE (dotE N1 N2 a b)

/-- What the kernel adds at the tile pair (i, j): the six tile sums, in the body's order. -/
def tileTotal (N0 N1 N2 : Arr) (i j : Fin 4) : EReal :=
  ((((tileSum (T00 N0 N1 N2) i j + tileSum (T11 N0 N1 N2) i j) + tileSum (T22 N0 N1 N2) i j) + tileSum (T01 N0 N1 N2) i j)
    + tileSum (T02 N0 N1 N2) i j) + tileSum (T12 N0 N1 N2) i j

/-- The kernel's grouping: per row of tiles the four column tiles accumulated left to right, then the four rows. -/
def kernelTotal (N0 N1 N2 : Arr) : EReal :=
  ∑ i : Fin 4, (((tileTotal N0 N1 N2 i 0 + tileTotal N0 N1 N2 i 1) + tileTotal N0 N1 N2 i 2) + tileTotal N0 N1 N2 i 3)

/-- The reference's grouping. -/
def refTotal (N0 N1 N2 : Arr) : EReal :=
  ((pairSum (T00 N0 N1 N2) + pairSum (T11 N0 N1 N2)) + pairSum (T22 N0 N1 N2))
    + ((pairSum (T01 N0 N1 N2) + pairSum (T02 N0 N1 N2)) + pairSum (T12 N0 N1 N2))

/-- The 4096 rows are the pairs (tile, row within the tile): (i, p) ↦ p + 1024 * i is a bijection. -/
private def rowEquiv : Fin 4 × Fin 1024 ≃ Fin 4096 := (finProdFinEquiv : Fin 4 × Fin 1024 ≃ Fin (4 * 1024))

private theorem rowEquiv_apply (i : Fin 4) (p : Fin 1024) : rowEquiv (i, p) = glue i p := by
  apply Fin.ext
  show p.val + 1024 * i.val = 1024 * i.val + p.val
  omega

/-- A sum over all rows, taken tile by tile. -/
private theorem sum_rows (f : Fin 4096 → EReal) :
    ∑ a : Fin 4096, f a = ∑ i : Fin 4, ∑ p : Fin 1024, f (glue i p) := by
  rw [← Equiv.sum_comp rowEquiv f, Fintype.sum_prod_type]
  simp only [rowEquiv_apply]

/-- A whole table's sum is the sum of its sixteen tiles' sums. -/
theorem pairSum_eq_tiles (T : Fin 4096 → Fin 4096 → EReal) : pairSum T = ∑ i : Fin 4, ∑ j : Fin 4, tileSum T i j := by
  unfold pairSum tileSum
  rw [sum_rows]
  refine Finset.sum_congr rfl fun i _ => ?_
  -- split the columns of each row of the tile row i, then bring the column tile outermost
  calc ∑ p : Fin 1024, ∑ b : Fin 4096, T (glue i p) b
      = ∑ p : Fin 1024, ∑ j : Fin 4, ∑ q : Fin 1024, T (glue i p) (glue j q) :=
        Finset.sum_congr rfl fun p _ => sum_rows (T (glue i p))
    _ = ∑ j : Fin 4, ∑ p : Fin 1024, ∑ q : Fin 1024, T (glue i p) (glue j q) := Finset.sum_comm

/-- Six 4 x 4 families added entry by entry, row by row, then over the rows, against the six families' own sums
    added in two groups of three: the same ninety-six terms. -/
private theorem regroup (s1 s2 s3 s4 s5 s6 : Fin 4 → Fin 4 → EReal) :
    (∑ i : Fin 4,
        ((((((((s1 i 0 + s2 i 0) + s3 i 0) + s4 i 0) + s5 i 0) + s6 i 0)
          + (((((s1 i 1 + s2 i 1) + s3 i 1) + s4 i 1) + s5 i 1) + s6 i 1))
          + (((((s1 i 2 + s2 i 2) + s3 i 2) + s4 i 2) + s5 i 2) + s6 i 2))
          + (((((s1 i 3 + s2 i 3) + s3 i 3) + s4 i 3) + s5 i 3) + s6 i 3)))
      = (((∑ i : Fin 4, ∑ j : Fin 4, s1 i j) + (∑ i : Fin 4, ∑ j : Fin 4, s2 i j)) + (∑ i : Fin 4, ∑ j : Fin 4, s3 i j))
        + (((∑ i : Fin 4, ∑ j : Fin 4, s4 i j) + (∑ i : Fin 4, ∑ j : Fin 4, s5 i j)) + (∑ i : Fin 4, ∑ j : Fin 4, s6 i j)) := by
  simp only [Fin.sum_univ_four]
  abel

/-- The two groupings are one sum. -/
theorem kernelTotal_eq_refTotal (N0 N1 N2 : Arr) : kernelTotal N0 N1 N2 = refTotal N0 N1 N2 := by
  unfold kernelTotal refTotal tileTotal
  simp only [pairSum_eq_tiles]
  exact regroup (tileSum (T00 N0 N1 N2)) (tileSum (T11 N0 N1 N2)) (tileSum (T22 N0 N1 N2))
    (tileSum (T01 N0 N1 N2)) (tileSum (T02 N0 N1 N2)) (tileSum (T12 N0 N1 N2))

end Cert.Terms

end
-- ==== Proof.KI.Payload.lean ====
/-
  The arithmetic of one grid point at the ideal instance. From the six input blocks (rows of the three normalised
  arrays: a row block and a column block of each) the body forms six 1024 x 1024 tables of scaled inner products,
  sums each whole, adds the six sums, and adds that total to every lane of the output block.
-/
import proofs.«173711_j88081189306970_1_alg».proof.Proof.Gen.KernelIdeal.Skeleton
import proofs.«173711_j88081189306970_1_alg».proof.Proof.Terms
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Cert.KernelIdeal Cert.KernelIdeal.Gen
open Idealize.ShloMosaic Idealize.ShloMosaic.TcCoe Idealize.ShloMosaic.ValueIdx

/-- A 1024 x 256 block of a normalised array, index by index. -/
abbrev Blk : Type := S1024x256.Idx → EReal

/-- The sum over a tile of a table of the two blocks' row inner products, through `g`. -/
def blockSum (g : EReal → EReal) (A B : Blk) : EReal :=
  ∑ p : Fin 1024, ∑ q : Fin 1024, g (∑ k : Fin 256, A (ix2 p k) * B (ix2 q k))

/-- The six tile sums of a grid point, added in the body's order: x0, x2, x4 are the row blocks of the three arrays,
    x1, x3, x5 their column blocks. -/
def pointTotal (x0 x1 x2 x3 x4 x5 : Blk) : EReal :=
  ((((blockSum Cert.Terms.posE x0 x1 + blockSum Cert.Terms.posE x2 x3) + blockSum Cert.Terms.posE x4 x5)
      + blockSum Cert.Terms.negE x0 x3) + blockSum Cert.Terms.negE x0 x5) + blockSum Cert.Terms.negE x2 x5

/-! ## The product of two blocks, both contracted along their second axis -/

theorem lhs_mm_0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
theorem lhs_mm_1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
theorem rhs_mm_0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
theorem rhs_mm_1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The product into a zero table, at (p, q): the inner product of row p of the first block and row q of the second. -/
theorem mm_apply (a b : FVec Ideal S1024x256 .bf16) (p q : Fin 1024) :
    matmul dot_S1024x256_S1024x256_S1024x1024_1_1_0_0_n_n none a b (constant (F := Ideal) S1024x1024 .f32 0x00000000#32) (ix2 p q)
      = ∑ k : Fin 256, a (ix2 p k) * b (ix2 q k) := by
  simp only [matmul]
  rw [Ideal.matmul_constant_zero_apply, ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p q) ((ValueIdx.contrEquiv1 dot_S1024x256_S1024x256_S1024x1024_1_1_0_0_n_n 256 rfl rfl).symm k) = ix2 p k := funext fun c => Fin.ext (by
    match c with
    | ⟨0, _⟩ => exact lhs_mm_0 _ _
    | ⟨1, _⟩ => exact (lhs_mm_1 _ _).trans hk)
  have er : dot_S1024x256_S1024x256_S1024x1024_1_1_0_0_n_n.rhsIdx (ix2 p q) ((ValueIdx.contrEquiv1 dot_S1024x256_S1024x256_S1024x1024_1_1_0_0_n_n 256 rfl rfl).symm k) = ix2 q k := funext fun c => Fin.ext (by
    match c with
    | ⟨0, _⟩ => exact rhs_mm_0 _ _
    | ⟨1, _⟩ => exact (rhs_mm_1 _ _).trans hk)
  rw [el, er]

/-! ## The sum of a whole table -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The lane and sublane sum of a table viewed with a leading unit axis, into one entry: the sum of all its entries. -/
theorem tableTotal (T : FVec Ideal S1024x1024 .f32) (j : S1.Idx) :
    multiReduction (F := Ideal) .add [1, 2] S1 (shapeCast S1x1024x1024 T shapeCasts_S1024x1024_S1x1024x1024) 0x00000000#32 reduces_S1x1024x1024_S1 (.inl rfl) rfl j
      = ∑ p : Fin 1024, ∑ q : Fin 1024, T (ix2 p q) := by
  refine (Ideal.multiReduction_add_total _ 0x00000000#32 reduces_S1x1024x1024_S1 (fun b => by match b with | ⟨0, _⟩ => rfl) (.inl rfl) rfl j).trans ?_
  rw [sum_idx3, Fin.sum_univ_one]
  refine Finset.sum_congr rfl fun p _ => Finset.sum_congr rfl fun q _ => ?_
  exact shapeCast_ab_1ab_apply T _ 0 p q

/-! ## The body's tables and their totals -/

/-- The total of the table of (2 s - 1)^2 over the inner products s of the rows of two blocks. -/
theorem pos_total (a b : FVec Ideal S1024x256 .bf16) (j : S1.Idx) :
    multiReduction (F := Ideal) .add [1, 2] S1 (shapeCast S1x1024x1024 (mulf (subf (mulf (matmul dot_S1024x256_S1024x256_S1024x1024_1_1_0_0_n_n none a b (constant (F := Ideal) S1024x1024 .f32 0x00000000#32)) (broadcast S1024x1024 (Scalar.ofBits (F := Ideal) .f32 0x40000000#32))) (broadcast S1024x1024 (Scalar.ofBits (F := Ideal) .f32 0x3F800000#32))) (subf (mulf (matmul dot_S1024x256_S1024x256_S1024x1024_1_1_0_0_n_n none a b (constant (F := Ideal) S1024x1024 .f32 0x00000000#32)) (broadcast S1024x1024 (Scalar.ofBits (F := Ideal) .f32 0x40000000#32))) (broadcast S1024x1024 (Scalar.ofBits (F := Ideal) .f32 0x3F800000#32)))) shapeCasts_S1024x1024_S1x1024x1024) 0x00000000#32 reduces_S1x1024x1024_S1 (.inl rfl) rfl j = blockSum Cert.Terms.posE a b := by
  refine (tableTotal _ j).trans ?_
  unfold blockSum
  refine Finset.sum_congr rfl fun p _ => Finset.sum_congr rfl fun q _ => ?_
  show Cert.Terms.posE (matmul dot_S1024x256_S1024x256_S1024x1024_1_1_0_0_n_n none a b (constant (F := Ideal) S1024x1024 .f32 0x00000000#32) (ix2 p q)) = _
  exact congrArg Cert.Terms.posE (mm_apply a b p q)

/-- The total of the table of (2 s)^2 over the inner products s of the rows of two blocks. -/
theorem neg_total (a b : FVec Ideal S1024x256 .bf16) (j : S1.Idx) :
    multiReduction (F := Ideal) .add [1, 2] S1 (shapeCast S1x1024x1024 (mulf (mulf (matmul dot_S1024x256_S1024x256_S1024x1024_1_1_0_0_n_n none a b (constant (F := Ideal) S1024x1024 .f32 0x00000000#32)) (broadcast S1024x1024 (Scalar.ofBits (F := Ideal) .f32 0x40000000#32))) (mulf (matmul dot_S1024x256_S1024x256_S1024x1024_1_1_0_0_n_n none a b (constant (F := Ideal) S1024x1024 .f32 0x00000000#32)) (broadcast S1024x1024 (Scalar.ofBits (F := Ideal) .f32 0x40000000#32)))) shapeCasts_S1024x1024_S1x1024x1024) 0x00000000#32 reduces_S1x1024x1024_S1 (.inl rfl) rfl j = blockSum Cert.Terms.negE a b := by
  refine (tableTotal _ j).trans ?_
  unfold blockSum
  refine Finset.sum_congr rfl fun p _ => Finset.sum_congr rfl fun q _ => ?_
  show Cert.Terms.negE (matmul dot_S1024x256_S1024x256_S1024x1024_1_1_0_0_n_n none a b (constant (F := Ideal) S1024x1024 .f32 0x00000000#32) (ix2 p q)) = _
  exact congrArg Cert.Terms.negE (mm_apply a b p q)

/-! ## The payloads -/

theorem pay3_eq (x : Vec Ideal S1024x256 .bf16) : k0_pay3 (F := Ideal) x = x := shapeCast_self _ _
theorem pay4_eq (x : Vec Ideal S1024x256 .bf16) : k0_pay4 (F := Ideal) x = x := shapeCast_self _ _
theorem pay5_eq (x : Vec Ideal S1024x256 .bf16) : k0_pay5 (F := Ideal) x = x := shapeCast_self _ _
theorem pay6_eq (x : Vec Ideal S1024x256 .bf16) : k0_pay6 (F := Ideal) x = x := shapeCast_self _ _
theorem pay7_eq (x : Vec Ideal S1024x256 .bf16) : k0_pay7 (F := Ideal) x = x := shapeCast_self _ _

/-- The one entry of a [1]-vector, read through its [1,1,1] view and spread over a [1,1] vector. -/
theorem read11 (w : FVec Ideal S1 .f32) (c : EReal) (hw : ∀ j, w j = c) (y : S1x1.Idx) :
    broadcast S1x1 (extractAt ![0, 0, 0] (shapeCast S1x1x1 w shapeCasts_S1_S1x1x1) inpos_S1x1x1_p0_0_0) y = c := hw _

/-- The first table's total, on the one entry of its [1,1] vector. -/
theorem pay8_apply (x0 x1 : Vec Ideal S1024x256 .bf16) (y : S1x1.Idx) :
    k0_pay8 (F := Ideal) x0 x1 y = blockSum Cert.Terms.posE x0 x1 := by
  unfold k0_pay8
  exact read11 _ _ (fun j => (pos_total (k0_pay3 (F := Ideal) x0) (shapeCast S1024x256 x1 shapeCasts_S1024x256_S1024x256) j).trans
    (by rw [pay3_eq, shapeCast_self])) y

/-- The one entry of a [1]-vector, read through its [1,1,1] view. -/
theorem read111 (w : FVec Ideal S1 .f32) (c : EReal) (hw : ∀ j, w j = c) (j : S1x1x1.Idx) :
    shapeCast S1x1x1 w shapeCasts_S1_S1x1x1 j = c := hw _

/-- The second table's total, on the one entry of its [1,1,1] vector. -/
theorem pay9_apply (x2 x3 : Vec Ideal S1024x256 .bf16) (j : S1x1x1.Idx) :
    k0_pay9 (F := Ideal) x2 x3 j = blockSum Cert.Terms.posE x2 x3 := by
  unfold k0_pay9
  exact read111 _ _ (fun i => (pos_total (k0_pay4 (F := Ideal) x2) (k0_pay5 (F := Ideal) x3) i).trans
    (by rw [pay4_eq, pay5_eq])) j

/-- Six one-entry vectors added in the body's order, each known at its one entry. -/
theorem sum6 (v25 : FVec Ideal S1x1 .f32) (v34 : FVec Ideal S1x1x1 .f32) (w3 w4 w5 w6 : FVec Ideal S1 .f32)
    (a b c3 c4 c5 c6 : EReal) (h25 : ∀ y, v25 y = a) (h34 : ∀ j, v34 j = b)
    (h3 : ∀ j, w3 j = c3) (h4 : ∀ j, w4 j = c4) (h5 : ∀ j, w5 j = c5) (h6 : ∀ j, w6 j = c6) (y : S1x1.Idx) :
    addf (addf (addf (addf (addf v25 (broadcast S1x1 (extractAt ![0, 0, 0] v34 inpos_S1x1x1_p0_0_0))) (broadcast S1x1 (extractAt ![0, 0, 0] (shapeCast S1x1x1 w3 shapeCasts_S1_S1x1x1) inpos_S1x1x1_p0_0_0))) (broadcast S1x1 (extractAt ![0, 0, 0] (shapeCast S1x1x1 w4 shapeCasts_S1_S1x1x1) inpos_S1x1x1_p0_0_0))) (broadcast S1x1 (extractAt ![0, 0, 0] (shapeCast S1x1x1 w5 shapeCasts_S1_S1x1x1) inpos_S1x1x1_p0_0_0))) (broadcast S1x1 (extractAt ![0, 0, 0] (shapeCast S1x1x1 w6 shapeCasts_S1_S1x1x1) inpos_S1x1x1_p0_0_0)) y
      = ((((a + b) + c3) + c4) + c5) + c6 := by
  show ((((v25 y + v34 _) + w3 _) + w4 _) + w5 _) + w6 _ = _
  rw [h25, h34, h3, h4, h5, h6]

/-- The six totals added, given the first two. -/
theorem pay10_apply (v4 v8 v10 v12 v14 : FVec Ideal S1024x256 .bf16) (v25 : FVec Ideal S1x1 .f32) (v34 : FVec Ideal S1x1x1 .f32)
    (a b : EReal) (h25 : ∀ y, v25 y = a) (h34 : ∀ j, v34 j = b) (y : S1x1.Idx) :
    k0_pay10 (F := Ideal) v4 v8 v10 v12 v14 v25 v34 y
      = ((((a + b) + blockSum Cert.Terms.posE v12 v14) + blockSum Cert.Terms.negE v4 v10) + blockSum Cert.Terms.negE v4 v14)
          + blockSum Cert.Terms.negE v8 v14 := by
  unfold k0_pay10
  exact sum6 v25 v34 _ _ _ _ a b _ _ _ _ h25 h34 (pos_total v12 v14) (neg_total v4 v10) (neg_total v4 v14) (neg_total v8 v14) y

/-- The stored block at a lane, given the total on the one entry of its [1,1] vector. -/
theorem pay1_apply (v79 : FVec Ideal S1x1 .f32) (acc : Vec Ideal S1x1x128 .f32) (t : EReal) (h79 : ∀ j, v79 j = t)
    (y : S1x1x128.Idx) : k0_pay1 (F := Ideal) v79 acc y = acc y + t := by
  unfold k0_pay1
  show (shapeCast S1x1x128 acc shapeCasts_S1x1x128_S1x1x128) y + v79 _ = _
  rw [shapeCast_self, h79]

/-- The stored block: every lane of the block the body read, plus the point's total. -/
theorem stored_apply (x0 x1 x2 x3 x4 x5 : Vec Ideal S1024x256 .bf16) (acc : Vec Ideal S1x1x128 .f32) (y : S1x1x128.Idx) :
    k0_pay1 (F := Ideal) (k0_pay10 (F := Ideal) (k0_pay3 x0) (k0_pay4 x2) (k0_pay5 x3) (k0_pay6 x4) (k0_pay7 x5) (k0_pay8 x0 x1) (k0_pay9 x2 x3)) acc y
      = acc y + pointTotal x0 x1 x2 x3 x4 x5 := by
  refine pay1_apply _ acc (pointTotal x0 x1 x2 x3 x4 x5) (fun j => ?_) y
  unfold pointTotal
  refine (pay10_apply _ _ _ _ _ _ _ (blockSum Cert.Terms.posE x0 x1) (blockSum Cert.Terms.posE x2 x3)
    (pay8_apply x0 x1) (pay9_apply x2 x3) j).trans ?_
  rw [pay3_eq, pay4_eq, pay5_eq, pay6_eq, pay7_eq]

/-- The zeroed block. -/
theorem zero_apply (y : S1x1x128.Idx) : k0_pay2 (F := Ideal) y = 0 := by
  show Ideal.ofBits .f32 0x00000000#32 = 0
  exact Ideal.ofBits_zero_f32

end Cert.KernelIdeal.Payload

end
-- ==== Proof.KI.Blocks.lean ====
/-
  The six input blocks of a grid point are rows of the three normalised arrays: at the point of row tile i and
  column tile j, windows 0, 2, 4 hold rows 1024 i … of the arrays and windows 1, 3, 5 rows 1024 j …. So the point's
  total is the tile pair's total of the six tables.
-/
import proofs.«173711_j88081189306970_1_alg».proof.Proof.KI.Runs
import proofs.«173711_j88081189306970_1_alg».proof.Proof.KI.Payload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The row tile and the column tile of a grid point. -/
def rowTile (t : Fin cfg0.N) : Fin 4 := ⟨t.val / 4, by have := lt_of_lt_of_eq t.isLt (show cfg0.N = 16 from N_0); omega⟩
def colTile (t : Fin cfg0.N) : Fin 4 := ⟨t.val % 4, by omega⟩

variable (mI : (ℓ : Loc nD τ sig) → Buf (Elt Ideal) ℓ)

open Cert.Terms Idealize.ShloMosaic.ValueIdx

/-- The printed index maps, decided over the grid: the even windows' block index is (row tile, 0), the odd
    windows' is (column tile, 0). -/
theorem idx_facts : ∀ t : Fin cfg0.N,
    (win0_0.index t (0 : Fin 2) = t.val / 4 ∧ win0_0.index t (1 : Fin 2) = 0)
    ∧ (win0_1.index t (0 : Fin 2) = t.val % 4 ∧ win0_1.index t (1 : Fin 2) = 0)
    ∧ (win0_2.index t (0 : Fin 2) = t.val / 4 ∧ win0_2.index t (1 : Fin 2) = 0)
    ∧ (win0_3.index t (0 : Fin 2) = t.val % 4 ∧ win0_3.index t (1 : Fin 2) = 0)
    ∧ (win0_4.index t (0 : Fin 2) = t.val / 4 ∧ win0_4.index t (1 : Fin 2) = 0)
    ∧ (win0_5.index t (0 : Fin 2) = t.val % 4 ∧ win0_5.index t (1 : Fin 2) = 0) :=
  (by decide +kernel : ∀ t : Fin grid0.N, _)

/-- Window 0's block at a point is rows 1024 i … of the first array, i the point's row tile. -/
theorem iblk0_apply (c : Dev nD) (t : Fin cfg0.N) (p : Fin 1024) (k : Fin 256) :
    iblk mI c 0 t (ix2 p k) = V mI c main_v5 (ix2 (glue (rowTile t) p) k) := by
  unfold iblk
  show V mI c main_v5 (((cfg0.win 0).blk t).view.emb (ix2 p k)) = _
  refine congrArg _ ?_
  obtain ⟨e0, e1⟩ := (idx_facts t).1
  funext a; apply Fin.ext
  match a with
  | ⟨0, _⟩ => show win0_0.index t (0 : Fin 2) * 1024 + 1 * p.val = 1024 * (t.val / 4) + p.val; omega
  | ⟨1, _⟩ => show win0_0.index t (1 : Fin 2) * 256 + 1 * k.val = k.val; omega

/-- Window 1's block at a point is rows 1024 j … of the first array, j the point's column tile. -/
theorem iblk1_apply (c : Dev nD) (t : Fin cfg0.N) (p : Fin 1024) (k : Fin 256) :
    iblk mI c 1 t (ix2 p k) = V mI c main_v5 (ix2 (glue (colTile t) p) k) := by
  unfold iblk
  show V mI c main_v5 (((cfg0.win 1).blk t).view.emb (ix2 p k)) = _
  refine congrArg _ ?_
  obtain ⟨e0, e1⟩ := (idx_facts t).2.1
  funext a; apply Fin.ext
  match a with
  | ⟨0, _⟩ => show win0_1.index t (0 : Fin 2) * 1024 + 1 * p.val = 1024 * (t.val % 4) + p.val; omega
  | ⟨1, _⟩ => show win0_1.index t (1 : Fin 2) * 256 + 1 * k.val = k.val; omega

/-- Window 2's block at a point is rows 1024 i … of the second array, i the point's row tile. -/
theorem iblk2_apply (c : Dev nD) (t : Fin cfg0.N) (p : Fin 1024) (k : Fin 256) :
    iblk mI c 2 t (ix2 p k) = V mI c main_v11 (ix2 (glue (rowTile t) p) k) := by
  unfold iblk
  show V mI c main_v11 (((cfg0.win 2).blk t).view.emb (ix2 p k)) = _
  refine congrArg _ ?_
  obtain ⟨e0, e1⟩ := (idx_facts t).2.2.1
  funext a; apply Fin.ext
  match a with
  | ⟨0, _⟩ => show win0_2.index t (0 : Fin 2) * 1024 + 1 * p.val = 1024 * (t.val / 4) + p.val; omega
  | ⟨1, _⟩ => show win0_2.index t (1 : Fin 2) * 256 + 1 * k.val = k.val; omega

/-- Window 3's block at a point is rows 1024 j … of the second array, j the point's column tile. -/
theorem iblk3_apply (c : Dev nD) (t : Fin cfg0.N) (p : Fin 1024) (k : Fin 256) :
    iblk mI c 3 t (ix2 p k) = V mI c main_v11 (ix2 (glue (colTile t) p) k) := by
  unfold iblk
  show V mI c main_v11 (((cfg0.win 3).blk t).view.emb (ix2 p k)) = _
  refine congrArg _ ?_
  obtain ⟨e0, e1⟩ := (idx_facts t).2.2.2.1
  funext a; apply Fin.ext
  match a with
  | ⟨0, _⟩ => show win0_3.index t (0 : Fin 2) * 1024 + 1 * p.val = 1024 * (t.val % 4) + p.val; omega
  | ⟨1, _⟩ => show win0_3.index t (1 : Fin 2) * 256 + 1 * k.val = k.val; omega

/-- Window 4's block at a point is rows 1024 i … of the third array, i the point's row tile. -/
theorem iblk4_apply (c : Dev nD) (t : Fin cfg0.N) (p : Fin 1024) (k : Fin 256) :
    iblk mI c 4 t (ix2 p k) = V mI c main_v17 (ix2 (glue (rowTile t) p) k) := by
  unfold iblk
  show V mI c main_v17 (((cfg0.win 4).blk t).view.emb (ix2 p k)) = _
  refine congrArg _ ?_
  obtain ⟨e0, e1⟩ := (idx_facts t).2.2.2.2.1
  funext a; apply Fin.ext
  match a with
  | ⟨0, _⟩ => show win0_4.index t (0 : Fin 2) * 1024 + 1 * p.val = 1024 * (t.val / 4) + p.val; omega
  | ⟨1, _⟩ => show win0_4.index t (1 : Fin 2) * 256 + 1 * k.val = k.val; omega

/-- Window 5's block at a point is rows 1024 j … of the third array, j the point's column tile. -/
theorem iblk5_apply (c : Dev nD) (t : Fin cfg0.N) (p : Fin 1024) (k : Fin 256) :
    iblk mI c 5 t (ix2 p k) = V mI c main_v17 (ix2 (glue (colTile t) p) k) := by
  unfold iblk
  show V mI c main_v17 (((cfg0.win 5).blk t).view.emb (ix2 p k)) = _
  refine congrArg _ ?_
  obtain ⟨e0, e1⟩ := (idx_facts t).2.2.2.2.2
  funext a; apply Fin.ext
  match a with
  | ⟨0, _⟩ => show win0_5.index t (0 : Fin 2) * 1024 + 1 * p.val = 1024 * (t.val % 4) + p.val; omega
  | ⟨1, _⟩ => show win0_5.index t (1 : Fin 2) * 256 + 1 * k.val = k.val; omega

/-- The point's total, of the blocks the pipeline stages, is the tile pair's total of the six tables. -/
theorem pointTotal_iblk (c : Dev nD) (t : Fin cfg0.N) :
    Cert.KernelIdeal.Payload.pointTotal (iblk mI c 0 t) (iblk mI c 1 t) (iblk mI c 2 t) (iblk mI c 3 t) (iblk mI c 4 t) (iblk mI c 5 t)
      = Cert.Terms.tileTotal (V mI c main_v5) (V mI c main_v11) (V mI c main_v17) (rowTile t) (colTile t) := by
  unfold Cert.KernelIdeal.Payload.pointTotal Cert.KernelIdeal.Payload.blockSum Cert.Terms.tileTotal Cert.Terms.tileSum
    Cert.Terms.T00 Cert.Terms.T11 Cert.Terms.T22 Cert.Terms.T01 Cert.Terms.T02 Cert.Terms.T12 Cert.Terms.dotE
  simp only [iblk0_apply, iblk1_apply, iblk2_apply, iblk3_apply, iblk4_apply, iblk5_apply]

end Cert.KernelIdeal.Hand

end
-- ==== Proof.KI.Array.lean ====
/-
  The kernel's result at the ideal instance. The output array's row block i is written back once, after the fourth
  column tile, and then holds the four tile pairs' totals of row tile i accumulated over a zeroed block; the host
  tail takes lane 0 of each row block and adds the four. That is the kernel's grouping of the six tables' sums.
-/
import proofs.«173711_j88081189306970_1_alg».proof.Proof.KI.Pieces
import proofs.«173711_j88081189306970_1_alg».proof.Proof.KI.Blocks
import proofs.«173711_j88081189306970_1_alg».proof.Proof.KI.Tail
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (mI : (ℓ : Loc nD τ sig) → Buf (Elt Ideal) ℓ)

open Idealize.ShloMosaic.ValueIdx

/-- The four column tiles' totals of row tile `i`, accumulated left to right. -/
def rowTotal (N0 N1 N2 : Cert.Terms.Arr) (i : Fin 4) : EReal :=
  ((Cert.Terms.tileTotal N0 N1 N2 i 0 + Cert.Terms.tileTotal N0 N1 N2 i 1) + Cert.Terms.tileTotal N0 N1 N2 i 2)
    + Cert.Terms.tileTotal N0 N1 N2 i 3

/-! ## The accumulation along a row of tiles -/

/-- At a first column tile every lane of the output block holds the tile pair's total over zero. -/
theorem acc_first (c : Dev nD) (n : ℕ) (hn : n < cfg0.N) (h0 : n % 4 = 0) (y : S1x1x128.Idx) :
    outsAt0 mI c n hn y
      = 0 + Cert.Terms.tileTotal (V mI c main_v5) (V mI c main_v11) (V mI c main_v17) (rowTile ⟨n, hn⟩) (colTile ⟨n, hn⟩) := by
  rw [show outsAt0 mI c n hn = _ from outsAt0_A mI c ⟨n, hn⟩ h0, out0_A_eq]
  unfold stepOut
  refine (Payload.stored_apply _ _ _ _ _ _ _ y).trans ?_
  rw [Payload.zero_apply, pointTotal_iblk]

/-- At a later column tile every lane holds what the point before left plus the tile pair's total. -/
theorem acc_next (c : Dev nD) (n : ℕ) (hn : n < cfg0.N) (h0 : ¬n % 4 = 0) (y : S1x1x128.Idx) :
    outsAt0 mI c n hn y
      = outsAt0 mI c (n - 1) (Nat.lt_of_le_of_lt (Nat.sub_le _ _) hn) y
        + Cert.Terms.tileTotal (V mI c main_v5) (V mI c main_v11) (V mI c main_v17) (rowTile ⟨n, hn⟩) (colTile ⟨n, hn⟩) := by
  rw [show outsAt0 mI c n hn = _ from outsAt0_B mI c ⟨n, hn⟩ h0, out0_B_eq]
  unfold stepOut
  refine (Payload.stored_apply _ _ _ _ _ _ _ y).trans ?_
  rw [pointTotal_iblk]

/-- After the fourth column tile of a row of tiles every lane holds the row's accumulated total. -/
theorem out_row (c : Dev nD) (n : ℕ) (hn : n < cfg0.N) (h3 : n % 4 = 3) (y : S1x1x128.Idx) :
    outsAt0 mI c n hn y = rowTotal (V mI c main_v5) (V mI c main_v11) (V mI c main_v17) (rowTile ⟨n, hn⟩) := by
  have hN : n < 16 := lt_of_lt_of_eq hn (show cfg0.N = 16 from N_0)
  rw [acc_next mI c n hn (by omega) y, acc_next mI c (n - 1) _ (by omega) y, acc_next mI c (n - 1 - 1) _ (by omega) y,
    acc_first mI c (n - 1 - 1 - 1) _ (by omega) y, zero_add]
  unfold rowTotal
  have r1 : ∀ h, rowTile ⟨n - 1, h⟩ = rowTile ⟨n, hn⟩ := fun h => Fin.ext (by show (n - 1) / 4 = n / 4; omega)
  have r2 : ∀ h, rowTile ⟨n - 1 - 1, h⟩ = rowTile ⟨n, hn⟩ := fun h => Fin.ext (by show (n - 1 - 1) / 4 = n / 4; omega)
  have r3 : ∀ h, rowTile ⟨n - 1 - 1 - 1, h⟩ = rowTile ⟨n, hn⟩ := fun h => Fin.ext (by show (n - 1 - 1 - 1) / 4 = n / 4; omega)
  have c0 : ∀ h, colTile ⟨n - 1 - 1 - 1, h⟩ = 0 := fun h => Fin.ext (by show (n - 1 - 1 - 1) % 4 = 0; omega)
  have c1 : ∀ h, colTile ⟨n - 1 - 1, h⟩ = 1 := fun h => Fin.ext (by show (n - 1 - 1) % 4 = 1; omega)
  have c2 : ∀ h, colTile ⟨n - 1, h⟩ = 2 := fun h => Fin.ext (by show (n - 1) % 4 = 2; omega)
  have c3 : colTile ⟨n, hn⟩ = 3 := Fin.ext (by show n % 4 = 3; omega)
  rw [r1, r2, r3, c0, c1, c2, c3]

/-! ## The host tail at an index -/

/-- A rank-1 index is its coordinate. -/
def idxEquiv1 : S4.Idx ≃ Fin 4 where
  toFun j := j 0
  invFun k := ix1 k
  left_inv j := (eq_ix1 j).symm
  right_inv k := rfl

/-- A sum over the rank-1 indices, coordinate by coordinate. -/
theorem sum_idx1 (f : S4.Idx → EReal) : ∑ j : S4.Idx, f j = ∑ k : Fin 4, f (ix1 k) :=
  (Equiv.sum_comp idxEquiv1.symm f).symm

/-- The host tail of an array `a`: lane 0 of each of the four row blocks, added to zero. -/
theorem tail_apply (a : (⟨S4x1x128, .f32⟩ : BufTy).Contents (Elt Ideal)) (i : S_.Idx) :
    tailFn (F := Ideal) a i = 0 + ∑ r : Fin 4, a (ix3 r (0 : Fin 1) (0 : Fin 128)) := by
  unfold tailFn
  simp only [Host.reduceAdd, Ideal.hostReduceAdd_def]
  rw [Ideal.hostReduceAdd_total reducesTo_S4_S_d0 (fun b => b.elim0), sum_idx1]
  rw [constant_apply, Ideal.ofBits_zero_f32]
  refine congrArg (0 + ·) (Finset.sum_congr rfl fun r _ => ?_)
  refine (shapeCast_apply _ shapeCasts_S4x1x1_S4 (ix1 r) (ix3 r (0 : Fin 1) (0 : Fin 1)) ?_).trans ?_
  · rw [Shape.rowMajor_val_three, Shape.rowMajor_val_one]
    show (r.val * 1 + 0) * 1 + 0 = r.val
    omega
  · exact extractStridedSlice_apply _ a slices_S4x1x128_S4x1x1_0_0_0 _ (ix3 r (0 : Fin 1) (0 : Fin 128)) (fun ax => by
      match ax with
      | ⟨0, _⟩ => show r.val = 0 + r.val; omega
      | ⟨1, _⟩ => rfl
      | ⟨2, _⟩ => rfl)

/-! ## The output array from its blocks -/

/-- The output window's block index at a point: the row tile on the first axis, zero on the others. -/
theorem out_index : ∀ t : Fin cfg0.N, win0_6.index t (0 : Fin 3) = t.val / 4 ∧ win0_6.index t (1 : Fin 3) = 0
    ∧ win0_6.index t (2 : Fin 3) = 0 :=
  (by decide +kernel : ∀ t : Fin grid0.N, _)

/-- What the output array ends holding: in every lane of row block `r` the accumulated total of row tile `r`. -/
def arrG (c : Dev nD) : S4x1x128.Idx → EReal := fun j =>
  rowTotal (V mI c main_v5) (V mI c main_v11) (V mI c main_v17) ⟨(j 0).val, (j 0).isLt⟩

/-- What a point after a fourth column tile writes back is its block of that array. -/
theorem flushed_eq (c : Dev nD) (t : Fin cfg0.N) (hf : (cfg0.win 6).flush t = true) :
    (dats mI 0 c).flushed 6 t = ((cfg0.win 6).blk t).view.read (Elt Ideal) (arrG mI c) := by
  have h3 : t.val % 4 = 3 := (flush0_6 t).mp hf
  show (cfg0.win 6).cut (grid0.coords t) ((dats mI 0 c).after 6 t) = _
  rw [after0_6]
  funext y
  show outsAt0 mI c t.val t.isLt y = arrG mI c (((cfg0.win 6).blk t).view.emb y)
  rw [out_row mI c t.val t.isLt h3 y]
  unfold arrG
  congr 1
  apply Fin.ext
  show t.val / 4 = win0_6.index t (0 : Fin 3) * 1 + 1 * (y 0).val
  have e := (out_index t).1
  have hy : (y 0).val < 1 := (y 0).isLt
  omega

/-- An index of the array is in a point's block iff each coordinate is in the block's range on its axis. -/
theorem mem_blk (t : Fin cfg0.N) (i : S4x1x128.Idx) :
    i ∈ ((cfg0.win 6).blk t).view.set ↔ ∀ a : Fin 3, win0_6.index t a * S1x1x128.size a ≤ (i a).val
      ∧ (i a).val < win0_6.index t a * S1x1x128.size a + S1x1x128.size a := by
  show i ∈ ((View.whole main_v18).slice (win0_6.rect t)).set ↔ _
  rw [View.set_slice_whole, Rect.mem_set_unit]
  exact Iff.rfl

/-- The array after the run: row block `r` is covered by the point after the fourth column tile of row tile `r`. -/
theorem final_arr (c : Dev nD) : (dats mI 0 c).arrAt 6 cfg0.N = arrG mI c :=
  (dats mI 0 c).arrAt_eq_of_cover 6 (arrG mI c) (flushed_eq mI c) fun i => by
    have hi0 : (i 0).val < 4 := (i 0).isLt
    have hi1 : (i 1).val < 1 := (i 1).isLt
    have hi2 : (i 2).val < 128 := (i 2).isLt
    have hN : cfg0.N = 16 := N_0
    obtain ⟨t, ht⟩ : ∃ t : Fin cfg0.N, t.val = 4 * (i 0).val + 3 := ⟨⟨4 * (i 0).val + 3, by rw [hN]; omega⟩, rfl⟩
    obtain ⟨e0, e1, e2⟩ := out_index t
    refine ⟨t, (flush0_6 t).mpr (by omega), ?_⟩
    rw [mem_blk]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 1 ≤ (i 1).val ∧ (i 1).val < win0_6.index t (1 : Fin 3) * 1 + 1; omega
    | ⟨2, _⟩ => show win0_6.index t (2 : Fin 3) * 128 ≤ (i 2).val ∧ (i 2).val < win0_6.index t (2 : Fin 3) * 128 + 128; omega

/-- The result scalar is the kernel's grouping of the six tables' sums of the three normalised arrays. -/
theorem kernel_result (c : Dev nD) (i : S_.Idx) :
    tailFn (F := Ideal) ((dats mI 0 c).arrAt 6 cfg0.N) i
      = Cert.Terms.kernelTotal (V mI c main_v5) (V mI c main_v11) (V mI c main_v17) := by
  rw [final_arr mI c, tail_apply, zero_add]
  unfold Cert.Terms.kernelTotal
  exact Finset.sum_congr rfl fun r _ => rfl

end Cert.KernelIdeal.Hand

end
-- ==== Proof.KI.Norm.lean ====
/-
  The arrays the kernel region is handed are the reference's row-normalised arrays: the host lines before the region
  are the reference's own normalisation, followed by a change of float format, which is the identity at the ideal
  instance.
-/
import proofs.«173711_j88081189306970_1_alg».proof.Proof.KI.Runs
import proofs.«173711_j88081189306970_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (mI : (ℓ : Loc nD τ sig) → Buf (Elt Ideal) ℓ)

open Idealize.ShloMosaic.StableHlo in
theorem V_main_v5 (c : Dev nD) :
    (V mI c main_v5 : S4096x256.Idx → EReal) = Cert.ReferenceIdeal.Read.val_main_v4 (F := Ideal) (mI ((c.tc : Thread nD τ).loc main_arg0)) := by
  dsimp only [V, V0]
  simp only [preOps, hostOps0, hostOps0_1, hostOps0_2, hostOps0_3, hostOps0_4, hostOps0_5, List.flatten_cons, List.flatten_nil, List.append_nil, List.cons_append, List.nil_append]
  after_results
  rfl

open Idealize.ShloMosaic.StableHlo in
theorem V_main_v11 (c : Dev nD) :
    (V mI c main_v11 : S4096x256.Idx → EReal) = Cert.ReferenceIdeal.Read.val_main_v9 (F := Ideal) (mI ((c.tc : Thread nD τ).loc main_arg1)) := by
  dsimp only [V, V0]
  simp only [preOps, hostOps0, hostOps0_1, hostOps0_2, hostOps0_3, hostOps0_4, hostOps0_5, List.flatten_cons, List.flatten_nil, List.append_nil, List.cons_append, List.nil_append]
  after_results
  rfl

open Idealize.ShloMosaic.StableHlo in
theorem V_main_v17 (c : Dev nD) :
    (V mI c main_v17 : S4096x256.Idx → EReal) = Cert.ReferenceIdeal.Read.val_main_v14 (F := Ideal) (mI ((c.tc : Thread nD τ).loc main_arg2)) := by
  dsimp only [V, V0]
  simp only [preOps, hostOps0, hostOps0_1, hostOps0_2, hostOps0_3, hostOps0_4, hostOps0_5, List.flatten_cons, List.flatten_nil, List.append_nil, List.cons_append, List.nil_append]
  after_results
  rfl

end Cert.KernelIdeal.Hand

end
-- ==== Proof.RefValue.lean ====
/-
  The reference's result, read index by index at the ideal instance: the sum of the six 4096 x 4096 tables built
  from the three row-normalised arrays, grouped as the reference adds them.
-/
import proofs.«173711_j88081189306970_1_alg».proof.Proof.Gen.ReferenceIdeal.Read
import proofs.«173711_j88081189306970_1_alg».proof.Proof.Terms

noncomputable section

namespace Cert.RefValue

open Cert.ReferenceIdeal Cert.ReferenceIdeal.Gen Cert.ReferenceIdeal.Read
open Idealize.ShloMosaic Idealize.ShloMosaic.TcCoe Idealize.ShloMosaic.ValueIdx
open Cert.Terms

/-- Two index functions of a rank-2 shape agree when they agree on both axes. -/
local macro "axes2" : tactic =>
  `(tactic| (intro a b k; funext d; apply Fin.ext; match d with | ⟨0, _⟩ => rfl | ⟨1, _⟩ => rfl))

/-- An entry (a, b) of the product of A with the transpose of B is the inner product of row a of A and row b of B:
    the left factor is read at (a, k), the transposed right factor at (k, b), which is B at (b, k). -/
theorem dot_read (A B : Arr) (BT : S256x4096.Idx → EReal)
    (tr : S256x4096.Idx → S4096x256.Idx) (l : S4096x4096.Idx → Fin 256 → S4096x256.Idx)
    (r : S4096x4096.Idx → Fin 256 → S256x4096.Idx)
    (hBT : ∀ i, BT i = B (tr i))
    (hl : ∀ (a b : Fin 4096) (k : Fin 256), l (ix2 a b) k = ix2 a k)
    (hr : ∀ (a b : Fin 4096) (k : Fin 256), tr (r (ix2 a b) k) = ix2 b k) (a b : Fin 4096) :
    ∑ k : Fin 256, A (l (ix2 a b) k) * BT (r (ix2 a b) k) = dotE A B a b := by
  unfold dotE
  refine Finset.sum_congr rfl fun k _ => ?_
  rw [hBT, hl, hr]

/-- A whole table summed from zero is the double sum of its entries over rows and columns. -/
theorem table_sum (f : S4096x4096.Idx → EReal) (T : Fin 4096 → Fin 4096 → EReal)
    (h : ∀ a b : Fin 4096, f (ix2 a b) = T a b) :
    FloatOps.ofBits (F := Ideal) .f32 0x00000000#32 + ∑ j : S4096x4096.Idx, f j = pairSum T := by
  rw [Ideal.ofBits_def, Ideal.ofBits_zero_f32, zero_add, sum_idx2]
  unfold pairSum
  exact Finset.sum_congr rfl fun a _ => Finset.sum_congr rfl fun b _ => h a b

variable (x0 x1 x2 : (⟨S4096x256, .f32⟩ : BufTy).Contents (Elt Ideal)) (N0 N1 N2 : Arr)

/-- The (0,0) table: (2 <row a of N0, row b of N0> - 1)^2. -/
theorem el00 (a b : Fin 4096) :
    val_main_v41 (F := Ideal) x0 (ix2 a b) = T00 (val_main_v4 (F := Ideal) x0) N1 N2 a b := by
  rw [val_main_v41_apply, val_main_v40_apply, val_main_v30_apply, val_main_v29_apply, val_main_cst_5_apply,
    val_main_v39_apply, val_main_cst_8_apply, val_main_v28_apply,
    dot_read (val_main_v4 (F := Ideal) x0) (val_main_v4 (F := Ideal) x0) (val_main_v27 (F := Ideal) x0)
      idx_main_v27 lidx_main_v28 ridx_main_v28 (val_main_v27_apply x0) (by axes2) (by axes2) a b]
  rfl

/-- The (1,1) table: (2 <row a of N1, row b of N1> - 1)^2. -/
theorem el11 (a b : Fin 4096) :
    val_main_v45 (F := Ideal) x1 (ix2 a b) = T11 N0 (val_main_v9 (F := Ideal) x1) N2 a b := by
  rw [val_main_v45_apply, val_main_v44_apply, val_main_v34_apply, val_main_v33_apply, val_main_cst_6_apply,
    val_main_v43_apply, val_main_cst_10_apply, val_main_v32_apply,
    dot_read (val_main_v9 (F := Ideal) x1) (val_main_v9 (F := Ideal) x1) (val_main_v31 (F := Ideal) x1)
      idx_main_v31 lidx_main_v32 ridx_main_v32 (val_main_v31_apply x1) (by axes2) (by axes2) a b]
  rfl

/-- The (2,2) table: (2 <row a of N2, row b of N2> - 1)^2. -/
theorem el22 (a b : Fin 4096) :
    val_main_v50 (F := Ideal) x2 (ix2 a b) = T22 N0 N1 (val_main_v14 (F := Ideal) x2) a b := by
  rw [val_main_v50_apply, val_main_v49_apply, val_main_v38_apply, val_main_v37_apply, val_main_cst_7_apply,
    val_main_v48_apply, val_main_cst_12_apply, val_main_v36_apply,
    dot_read (val_main_v14 (F := Ideal) x2) (val_main_v14 (F := Ideal) x2) (val_main_v35 (F := Ideal) x2)
      idx_main_v35 lidx_main_v36 ridx_main_v36 (val_main_v35_apply x2) (by axes2) (by axes2) a b]
  rfl

/-- The (0,1) table: (2 <row a of N0, row b of N1>)^2. -/
theorem el01 (a b : Fin 4096) :
    val_main_v53 (F := Ideal) x0 x1 (ix2 a b)
      = T01 (val_main_v4 (F := Ideal) x0) (val_main_v9 (F := Ideal) x1) N2 a b := by
  rw [val_main_v53_apply, val_main_v18_apply, val_main_v17_apply, val_main_cst_2_apply, val_main_v16_apply,
    dot_read (val_main_v4 (F := Ideal) x0) (val_main_v9 (F := Ideal) x1) (val_main_v15 (F := Ideal) x1)
      idx_main_v15 lidx_main_v16 ridx_main_v16 (val_main_v15_apply x1) (by axes2) (by axes2) a b]
  rfl

/-- The (0,2) table: (2 <row a of N0, row b of N2>)^2. -/
theorem el02 (a b : Fin 4096) :
    val_main_v55 (F := Ideal) x0 x2 (ix2 a b)
      = T02 (val_main_v4 (F := Ideal) x0) N1 (val_main_v14 (F := Ideal) x2) a b := by
  rw [val_main_v55_apply, val_main_v22_apply, val_main_v21_apply, val_main_cst_3_apply, val_main_v20_apply,
    dot_read (val_main_v4 (F := Ideal) x0) (val_main_v14 (F := Ideal) x2) (val_main_v19 (F := Ideal) x2)
      idx_main_v19 lidx_main_v20 ridx_main_v20 (val_main_v19_apply x2) (by axes2) (by axes2) a b]
  rfl

/-- The (1,2) table: (2 <row a of N1, row b of N2>)^2. -/
theorem el12 (a b : Fin 4096) :
    val_main_v58 (F := Ideal) x1 x2 (ix2 a b)
      = T12 N0 (val_main_v9 (F := Ideal) x1) (val_main_v14 (F := Ideal) x2) a b := by
  rw [val_main_v58_apply, val_main_v26_apply, val_main_v25_apply, val_main_cst_4_apply, val_main_v24_apply,
    dot_read (val_main_v9 (F := Ideal) x1) (val_main_v14 (F := Ideal) x2) (val_main_v23 (F := Ideal) x2)
      idx_main_v23 lidx_main_v24 ridx_main_v24 (val_main_v23_apply x2) (by axes2) (by axes2) a b]
  rfl

/-- The reference's scalar result is the six tables' sums, in its own grouping, of the normalised arrays. -/
theorem result_eq (x0 x1 x2 : (⟨S4096x256, .f32⟩ : BufTy).Contents (Elt Ideal)) (i : S_.Idx) :
    val_main_v61 (F := Ideal) x0 x1 x2 i
      = Cert.Terms.refTotal (val_main_v4 (F := Ideal) x0) (val_main_v9 (F := Ideal) x1) (val_main_v14 (F := Ideal) x2) := by
  -- the scalar is the sum of two groups of three whole-table sums, each started from zero
  rw [val_main_v61_apply, val_main_v52_apply, val_main_v60_apply, val_main_v47_apply, val_main_v57_apply,
    val_main_v42_apply, val_main_v46_apply, val_main_v51_apply, val_main_v54_apply, val_main_v56_apply,
    val_main_v59_apply, val_main_cst_9_apply, val_main_cst_11_apply, val_main_cst_13_apply, val_main_cst_14_apply,
    val_main_cst_15_apply, val_main_cst_16_apply]
  -- each whole-table sum is the double sum of its table
  rw [table_sum _ _ (el00 x0 (val_main_v9 (F := Ideal) x1) (val_main_v14 (F := Ideal) x2)),
    table_sum _ _ (el11 x1 (val_main_v4 (F := Ideal) x0) (val_main_v14 (F := Ideal) x2)),
    table_sum _ _ (el22 x2 (val_main_v4 (F := Ideal) x0) (val_main_v9 (F := Ideal) x1)),
    table_sum _ _ (el01 x0 x1 (val_main_v14 (F := Ideal) x2)),
    table_sum _ _ (el02 x0 x2 (val_main_v9 (F := Ideal) x1)),
    table_sum _ _ (el12 x1 x2 (val_main_v4 (F := Ideal) x0))]
  generalize val_main_v4 (F := Ideal) x0 = N0
  generalize val_main_v9 (F := Ideal) x1 = N1
  generalize val_main_v14 (F := Ideal) x2 = N2
  rfl

end Cert.RefValue

end
-- ==== Proof.lean ====
/-
  The certificate. Both printed kernels (the word-level one and its idealization are one text read at two float
  instances) run to the end and leave their arguments unchanged: the launch of the one kernel region between its
  host lines, the three normalised arrays each shared by two input windows. The idealization rewrote nothing, so
  there is nothing to preserve. At the ideal instance the kernel's result is the six similarity tables' sums grouped
  tile by tile, the reference's the same tables summed whole: one sum, regrouped (commutativity and associativity of
  addition on the extended reals only; finiteness of the inputs is never used).
-/
import proofs.«173711_j88081189306970_1_alg».proof.Defs
import proofs.«173711_j88081189306970_1_alg».proof.Proof.Gen.Kernel
import proofs.«173711_j88081189306970_1_alg».proof.Proof.Gen.KernelIdeal
import proofs.«173711_j88081189306970_1_alg».proof.Proof.Gen.ReferenceIdeal
import proofs.«173711_j88081189306970_1_alg».proof.Proof.Gen.Pre_finite_inputs
import proofs.«173711_j88081189306970_1_alg».proof.Proof.Gen.ReferenceIdeal.Run
import proofs.«173711_j88081189306970_1_alg».proof.Proof.Gen.ReferenceIdeal.Read
import proofs.«173711_j88081189306970_1_alg».proof.Proof.K.Launch
import proofs.«173711_j88081189306970_1_alg».proof.Proof.KI.Launch
import proofs.«173711_j88081189306970_1_alg».proof.Proof.KI.Array
import proofs.«173711_j88081189306970_1_alg».proof.Proof.KI.Norm
import proofs.«173711_j88081189306970_1_alg».proof.Proof.RefValue
import proofs.«173711_j88081189306970_1_alg».proof.Proof.Terms
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run Cert.Kernel.defs _ _).mono (fun _ h c => (h c).2) (Cert.Kernel.Hand.run_main (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2) (Cert.KernelIdeal.Hand.run_main (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

theorem preserves : Cert.preserves_Kernel_KernelIdeal := trivial

/-- Both results are the six tables' sums of the same three normalised arrays. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => fun _ => Cert.Terms.kernelTotal (Cert.KernelIdeal.Hand.V m c Cert.KernelIdeal.main_v5) (Cert.KernelIdeal.Hand.V m c Cert.KernelIdeal.main_v11) (Cert.KernelIdeal.Hand.V m c Cert.KernelIdeal.main_v17), ?_, ?_⟩
  · exact (θ_run Cert.KernelIdeal.defs _ _).mono
      (fun _ h c => ⟨(h c).1.trans (funext fun i => Cert.KernelIdeal.Hand.kernel_result m c i), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq]
    funext i
    rw [Cert.RefValue.result_eq, (hagree c).1, (hagree c).2.1, (hagree c).2.2]
    show Cert.Terms.refTotal _ _ _ = Cert.Terms.kernelTotal _ _ _
    rw [Cert.Terms.kernelTotal_eq_refTotal, Cert.KernelIdeal.Hand.V_main_v5, Cert.KernelIdeal.Hand.V_main_v11, Cert.KernelIdeal.Hand.V_main_v17]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
